-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000x1 : Shape := ⟨2, ![1000000, 1]⟩
abbrev S16x64 : Shape := ⟨2, ![16, 64]⟩
abbrev S16 : Shape := ⟨1, ![16]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S1000000x1 : S_.BroadcastsInDim S1000000x1 (![] : Fin 0 → Fin S1000000x1.rank)
  reducesTo_S1000000x1_S_d0_1 : S1000000x1.ReducesTo [0, 1] S_

variable [Facts]

def fn_part1 {F : FTy → Type} [FloatOps F] (main_arg1 : IVec S1000000x1 32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_c_6 : IVec S_ 32 := constantI S_ 32 0#32
  let main_v19 : IVec S1000000x1 32 := broadcastInDim S1000000x1 ![] bcast_S_S1000000x1 main_c_6
  let main_v20 : IVec S1000000x1 1 := cmpi .sge main_arg1 main_v19
  let main_c_7 : IVec S_ 1 := constantI S_ 1 1#1
  let main_v21 : IVec S_ 1 := (fun x v => Host.reduce IntOp.andi x v reducesTo_S1000000x1_S_d0_1 h_S_) main_v20 main_c_7
  let main_v22 : IVec S_ 1 := andi main_v18 main_v21
  let main_c_8 : IVec S_ 32 := constantI S_ 32 16#32
  let main_v23 : IVec S1000000x1 32 := broadcastInDim S1000000x1 ![] bcast_S_S1000000x1 main_c_8
  let main_v24 : IVec S1000000x1 1 := cmpi .slt main_arg1 main_v23
  let main_c_9 : IVec S_ 1 := constantI S_ 1 1#1
  let main_v25 : IVec S_ 1 := (fun x v => Host.reduce IntOp.andi x v reducesTo_S1000000x1_S_d0_1 h_S_) main_v24 main_c_9
  let main_v26 : IVec S_ 1 := andi main_v22 main_v25
  main_v26

def fn {F : FTy → Type} [FloatOps F] (main_arg0 : FVec F S1000000x64 .f32) (main_arg1 : IVec S1000000x1 32) (main_arg2 : FVec F S16x64 .f32) (main_arg3 : FVec F S16x64 .f32) (main_arg4 : FVec F S16 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S16x64 .f32 := Host.absf main_arg2
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_v13 main_v16
-- ==== Kernel.lean ====
abbrev S1000000x64 : Shape := ⟨2, ![1000000, 64]⟩
abbrev S1000000x1 : Shape := ⟨2, ![1000000, 1]⟩
abbrev S16x64 : Shape := ⟨2, ![16, 64]⟩
abbrev S16 : Shape := ⟨1, ![16]⟩
abbrev S_ : Shape := ⟨0, ![]⟩
abbrev S1004800x64 : Shape := ⟨2, ![1004800, 64]⟩
abbrev S1000000 : Shape := ⟨1, ![1000000]⟩
abbrev S1004800 : Shape := ⟨1, ![1004800]⟩
abbrev S1x1004800 : Shape := ⟨2, ![1, 1004800]⟩
abbrev S16x1 : Shape := ⟨2, ![16, 1]⟩
abbrev S6400x64 : Shape := ⟨2, ![6400, 64]⟩
abbrev S1x6400 : Shape := ⟨2, ![1, 6400]⟩
abbrev S16x6400 : Shape := ⟨2, ![16, 6400]⟩

abbrev nBuf : Space → Nat
  | .hbm => 54
  | .vmem => 15
  | .smem => 0
  | _ => 0

abbrev bufTy : (tb : Table) → Fin (tcTables nBuf tb) → BufTy
  | .hbm, ⟨0, _⟩ => ⟨S1000000x64, .f32⟩
  | .hbm, ⟨1, _⟩ => ⟨S1000000x1, .i32⟩
  | .hbm, ⟨2, _⟩ => ⟨S16x64, .f32⟩
  | .hbm, ⟨3, _⟩ => ⟨S16x64, .f32⟩
  | .hbm, ⟨4, _⟩ => ⟨S16, .f32⟩
  | .hbm, ⟨5, _⟩ => ⟨S_, .i32⟩
  | .hbm, ⟨6, _⟩ => ⟨S_, .f32⟩
  | .hbm, ⟨7, _⟩ => ⟨S1004800x64, .f32⟩
  | .hbm, ⟨8, _⟩ => ⟨S1000000, .i32⟩
  | .hbm, ⟨9, _⟩ => ⟨S_, .i32⟩
  | .hbm, ⟨10, _⟩ => ⟨S_, .i32⟩
  | .hbm, ⟨11, _⟩ => ⟨S1004800, .i32⟩
  | .hbm, ⟨12, _⟩ => ⟨S1x1004800, .i32⟩
  | .hbm, ⟨13, _⟩ => ⟨S16x1, .f32⟩
  | .hbm, ⟨14, _⟩ => ⟨S16x64, .f32⟩
  | .hbm, ⟨15, _⟩ => ⟨S16x64, .f32⟩
  | .hbm, ⟨16, _⟩ => ⟨S_, .f32⟩
  | .hbm, ⟨17, _⟩ => ⟨S16x1, .f32⟩
  | .hbm, ⟨18, _⟩ => ⟨S16x1, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S_, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16, .f32⟩
  | .hbm, ⟨30, _⟩ => ⟨S16x1, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S_, .f32⟩
  | .hbm, ⟨40, _⟩ => ⟨S16x1, .f32⟩
  | .hbm, ⟨41, _⟩ => ⟨S16x1, .i1⟩
  | .hbm, ⟨42, _⟩ => ⟨S_, .f32⟩
  | .hbm, ⟨43, _⟩ => ⟨S_, .f32⟩
  | .hbm, ⟨44, _⟩ => ⟨S16x64, .i1⟩
  | .hbm, ⟨45, _⟩ => ⟨S16x64, .f32⟩
  | .hbm, ⟨46, _⟩ => ⟨S16x64, .f32⟩
  | .hbm, ⟨47, _⟩ => ⟨S_, .f32⟩
  | .hbm, ⟨48, _⟩ => ⟨S_, .f32⟩
  | .hbm, ⟨49, _⟩ => ⟨S16x64, .i1⟩
  | .hbm, ⟨50, _⟩ => ⟨S16x64, .f32⟩
  | .hbm, ⟨51, _⟩ => ⟨S16x64, .f32⟩
  | .hbm, ⟨52, _⟩ => ⟨S1004800x64, .f32⟩
  | .hbm, ⟨53, _⟩ => ⟨S1000000x64, .f32⟩
  | .local _ .vmem, ⟨0, _⟩ => ⟨S6400x64, .f32⟩
  | .local _ .vmem, ⟨1, _⟩ => ⟨S6400x64, .f32⟩
  | .local _ .vmem, ⟨2, _⟩ => ⟨S1x6400, .i32⟩
  | .local _ .vmem, ⟨3, _⟩ => ⟨S1x6400, .i32⟩
  | .local _ .vmem, ⟨4, _⟩ => ⟨S16x1, .f32⟩
  | .local _ .vmem, ⟨5, _⟩ => ⟨S16x64, .f32⟩
  | .local _ .vmem, ⟨6, _⟩ => ⟨S16x64, .f32⟩
  | .local _ .vmem, ⟨7, _⟩ => ⟨S6400x64, .f32⟩
  | .local _ .vmem, ⟨8, _⟩ => ⟨S6400x64, .f32⟩
  | .local _ .vmem, ⟨9, _⟩ => ⟨S1x6400, .i32⟩
  | .local _ .vmem, ⟨10, _⟩ => ⟨S1x6400, .i32⟩
  | .local _ .vmem, ⟨11, _⟩ => ⟨S16x64, .f32⟩
  | .local _ .vmem, ⟨12, _⟩ => ⟨S16x64, .f32⟩
  | .local _ .vmem, ⟨13, _⟩ => ⟨S6400x64, .f32⟩
  | .local _ .vmem, ⟨14, _⟩ => ⟨S6400x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v28 : Ref sig .tc := ⟨.hbm, 46, rfl⟩
abbrev main_cst_4 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![157], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6400 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![157], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x6400 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  pads_S1000000x64_S1004800x64_048000_000 : S1000000x64.Pads (![0, 0] : Fin 2 → Nat) ![4800, 0] ![0, 0] S1004800x64
  h_S_ : 0 < S_.numel
  shapeCasts_S1000000x1_S1000000 : S1000000x1.ShapeCasts S1000000
  pads_S1000000_S1004800_048000 : S1000000.Pads (![0] : Fin 1 → Nat) ![4800] ![0] S1004800
  shapeCasts_S1004800_S1x1004800 : S1004800.ShapeCasts S1x1004800
  inb_S16x1_S16x1_0_0 : ∀ a, (![0, 0] : Fin 2 → Nat) a + S16x1.size a ≤ S16x1.size a
  h_S16x1 : 0 < S16x1.numel
  inb_S16x64_S16x64_0_0 : ∀ a, (![0, 0] : Fin 2 → Nat) a + S16x64.size a ≤ S16x64.size a
  h_S16x64 : 0 < S16x64.numel
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S1x6400_S1x6400_0_0 : ∀ a, (![0, 0] : Fin 2 → Nat) a + S1x6400.size a ≤ S1x6400.size a
  h_S1x6400 : 0 < S1x6400.numel
  shapeCasts_S1x6400_S1x6400 : S1x6400.ShapeCasts S1x6400
  iota_S16x1_d0_w32 : S16x1.Iotas .tc 32 [0]
  broadcasts_S16x1_S16x6400 : S16x1.Broadcasts S16x6400
  broadcasts_S1x6400_S16x6400 : S1x6400.Broadcasts S16x6400
  natLt_1_32 : 1 < 32
  shapeCasts_S16x1_S16x1 : S16x1.ShapeCasts S16x1
  reduces_S16x6400_S16 : S16x6400.Reduces [1] S16
  shapeCasts_S16_S16x1 : S16.ShapeCasts S16x1
  shapeCasts_S16x64_S16x64 : S16x64.ShapeCasts S16x64
  bcast_S_S16x1 : S_.BroadcastsInDim S16x1 (![] : Fin 0 → Fin S16x1.rank)
  bcast_S16x1_S16x64_0_1 : S16x1.BroadcastsInDim S16x64 (![0, 1] : Fin 2 → Fin S16x64.rank)
  bcast_S_S16x64 : S_.BroadcastsInDim S16x64 (![] : Fin 0 → Fin S16x64.rank)
  bcast_S16_S16x1_0 : S16.BroadcastsInDim S16x1 (![0] : Fin 1 → Fin S16x1.rank)
  slices_S1004800x64_S1000000x64_0_0 : S1004800x64.Slices ![0, 0] S1000000x64
  dot_S16x6400_S6400x64_S16x64_1_0_0_1_n_n_wf : DotDims.WF S16x6400 S6400x64 S16x64 [1] [0] [0] [1] [] []
  dot_S16x6400_S16x64_S6400x64_0_0_1_1_n_n_wf : DotDims.WF S16x6400 S16x64 S6400x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1004800x64.size a
  hwx0_0 : ∀ i : grid0.Coords, EltTy.bits .f32 = 32 ∨ (Rect.block (s := S1004800x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6400.size a ≤ S1x1004800.size a
  hwx0_1 : ∀ i : grid0.Coords, EltTy.bits .i32 = 32 ∨ (Rect.block (s := S1x1004800) S1x6400.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S1004800x64.size a
  hwx1_0 : ∀ i : grid1.Coords, EltTy.bits .f32 = 32 ∨ (Rect.block (s := S1004800x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x6400.size a ≤ S1x1004800.size a
  hwx1_1 : ∀ i : grid1.Coords, EltTy.bits .i32 = 32 ∨ (Rect.block (s := S1x1004800) S1x6400.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6400x64.size a ≤ S1004800x64.size a
  hwx1_4 : ∀ i : grid1.Coords, EltTy.bits .f32 = 32 ∨ (Rect.block (s := S1004800x64) S6400x64.size (cc1_transform_4 i) (hinb1_4 i)).WholeWords (EltTy.packing .f32)

variable [Facts₀]

def dot_S16x6400_S6400x64_S16x64_1_0_0_1_n_n : DotDims S16x6400 S6400x64 S16x64 where
  lhsContracting := [1]
  rhsContracting := [0]
  lhsNonContracting := [0]
  rhsNonContracting := [1]
  lhsBatch := []
  rhsBatch := []
  wf := dot_S16x6400_S6400x64_S16x64_1_0_0_1_n_n_wf
def dot_S16x6400_S16x64_S6400x64_0_0_1_1_n_n : DotDims S16x6400 S16x64 S6400x64 where
  lhsContracting := [0]
  rhsContracting := [0]
  lhsNonContracting := [1]
  rhsNonContracting := [1]
  lhsBatch := []
  rhsBatch := []
  wf := dot_S16x6400_S16x64_S6400x64_0_0_1_1_n_n_wf

abbrev win0_0 : Pipeline.Window sig grid0 :=
  Pipeline.Window.ofSpec (Memref.whole main_v0) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S16x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S16x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S16x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x6400.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S6400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1000000x64 : Shape := ⟨2, ![1000000, 64]⟩
abbrev S1000000x1 : Shape := ⟨2, ![1000000, 1]⟩
abbrev S16x64 : Shape := ⟨2, ![16, 64]⟩
abbrev S16 : Shape := ⟨1, ![16]⟩
abbrev S1000000 : Shape := ⟨1, ![1000000]⟩
abbrev S_ : Shape := ⟨0, ![]⟩
abbrev S16x1 : Shape := ⟨2, ![16, 1]⟩

abbrev nBuf : Space → Nat
  | .hbm => 79
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x1, .i32⟩
  | .hbm, ⟨2, _⟩ => ⟨S16x64, .f32⟩
  | .hbm, ⟨3, _⟩ => ⟨S16x64, .f32⟩
  | .hbm, ⟨4, _⟩ => ⟨S16, .f32⟩
  | .hbm, ⟨5, _⟩ => ⟨S1000000, .i32⟩
  | .hbm, ⟨6, _⟩ => ⟨S_, .f32⟩
  | .hbm, ⟨7, _⟩ => ⟨S1000000, .f32⟩
  | .hbm, ⟨8, _⟩ => ⟨S_, .f32⟩
  | .hbm, ⟨9, _⟩ => ⟨S16, .f32⟩
  | .hbm, ⟨10, _⟩ => ⟨S1000000x1, .i32⟩
  | .hbm, ⟨11, _⟩ => ⟨S16, .f32⟩
  | .hbm, ⟨12, _⟩ => ⟨S16x1, .f32⟩
  | .hbm, ⟨13, _⟩ => ⟨S_, .f32⟩
  | .hbm, ⟨14, _⟩ => ⟨S16x64, .f32⟩
  | .hbm, ⟨15, _⟩ => ⟨S1000000x1, .i32⟩
  | .hbm, ⟨16, _⟩ => ⟨S16x64, .f32⟩
  | .hbm, ⟨17, _⟩ => ⟨S1000000x64, .f32⟩
  | .hbm, ⟨18, _⟩ => ⟨S_, .f32⟩
  | .hbm, ⟨19, _⟩ => ⟨S16x64, .f32⟩
  | .hbm, ⟨20, _⟩ => ⟨S1000000x1, .i32⟩
  | .hbm, ⟨21, _⟩ => ⟨S16x64, .f32⟩
  | .hbm, ⟨22, _⟩ => ⟨S_, .f32⟩
  | .hbm, ⟨23, _⟩ => ⟨S16x1, .f32⟩
  | .hbm, ⟨24, _⟩ => ⟨S16x1, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S_, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S16, .f32⟩
  | .hbm, ⟨36, _⟩ => ⟨S16x1, .f32⟩
  | .hbm, ⟨37, _⟩ => ⟨S16x64, .f32⟩
  | .hbm, ⟨38, _⟩ => ⟨S16x64, .f32⟩
  | .hbm, ⟨39, _⟩ => ⟨S16x64, .f32⟩
  | .hbm, ⟨40, _⟩ => ⟨S16x64, .f32⟩
  | .hbm, ⟨41, _⟩ => ⟨S16x64, .f32⟩
  | .hbm, ⟨42, _⟩ => ⟨S16x64, .f32⟩
  | .hbm, ⟨43, _⟩ => ⟨S16x64, .f32⟩
  | .hbm, ⟨44, _⟩ => ⟨S16x64, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x64, .f32⟩
  | .hbm, ⟨54, _⟩ => ⟨S1000000x64, .f32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000x64, .f32⟩
  | .hbm, ⟨64, _⟩ => ⟨S1000000x64, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x1, .f32⟩
  | .hbm, ⟨74, _⟩ => ⟨S_, .f32⟩
  | .hbm, ⟨75, _⟩ => ⟨S1000000x1, .f32⟩
  | .hbm, ⟨76, _⟩ => ⟨S1000000x1, .i1⟩
  | .hbm, ⟨77, _⟩ => ⟨S1000000x64, .i1⟩
  | .hbm, ⟨78, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_c_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_call0_v0 : Ref sig .tc := ⟨.hbm, 77, rfl⟩
abbrev main_v59 : Ref sig .tc := ⟨.hbm, 78, rfl⟩

abbrev nD : Nat := 1
abbrev τ : Topo := Topo.v7x

variable {F : FTy → Type} [FloatOps F]

class Facts₀ : Prop where
  shapeCasts_S1000000x1_S1000000 : S1000000x1.ShapeCasts S1000000
  bcast_S_S1000000 : S_.BroadcastsInDim S1000000 (![] : Fin 0 → Fin S1000000.rank)
  bcast_S_S16 : S_.BroadcastsInDim S16 (![] : Fin 0 → Fin S16.rank)
  bcast_S1000000_S1000000x1_0 : S1000000.BroadcastsInDim S1000000x1 (![0] : Fin 1 → Fin S1000000x1.rank)
  bcast_S16_S16x1_0 : S16.BroadcastsInDim S16x1 (![0] : Fin 1 → Fin S16x1.rank)
  bcast_S_S16x64 : S_.BroadcastsInDim S16x64 (![] : Fin 0 → Fin S16x64.rank)
  bcast_S_S16x1 : S_.BroadcastsInDim S16x1 (![] : Fin 0 → Fin S16x1.rank)
  bcast_S16x1_S16x64_0_1 : S16x1.BroadcastsInDim S16x64 (![0, 1] : Fin 2 → Fin S16x64.rank)
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  scatter_S16_S1000000x1_S1000000_n_0_0_1_wf : ScatterDims.WF S16 S1000000x1 S1000000 [] [0] [0] 1
  scatter_S16x64_S1000000x1_S1000000x64_1_0_0_1_wf : ScatterDims.WF S16x64 S1000000x1 S1000000x64 [1] [0] [0] 1
  gather_S16x64_S1000000x1_S1000000x64_1_0_n_n_0_1_164_wf : GatherDims.WF S16x64 S1000000x1 S1000000x64 [1] [0] [] [0] [] 1 ![1, 64]
  gather_S16x1_S1000000x1_S1000000x1_1_0_n_n_0_1_11_wf : GatherDims.WF S16x1 S1000000x1 S1000000x1 [1] [0] [] [0] [] 1 ![1, 1]

variable [Facts₀]

def scatter_S16_S1000000x1_S1000000_n_0_0_1 : ScatterDims S16 S1000000x1 S1000000 where
  updateWindowDims := []
  insertedWindowDims := [0]
  scatterDimsToOperandDims := [0]
  indexVectorDim := 1
  wf := scatter_S16_S1000000x1_S1000000_n_0_0_1_wf
def scatter_S16x64_S1000000x1_S1000000x64_1_0_0_1 : ScatterDims S16x64 S1000000x1 S1000000x64 where
  updateWindowDims := [1]
  insertedWindowDims := [0]
  scatterDimsToOperandDims := [0]
  indexVectorDim := 1
  wf := scatter_S16x64_S1000000x1_S1000000x64_1_0_0_1_wf
def gather_S16x64_S1000000x1_S1000000x64_1_0_n_n_0_1_164 : GatherDims S16x64 S1000000x1 S1000000x64 where
  offsetDims := [1]
  collapsedSliceDims := [0]
  operandBatchingDims := []
  startIndicesBatchingDims := []
  startIndexMap := [0]
  indexVectorDim := 1
  sliceSizes := ![1, 64]
  wf := gather_S16x64_S1000000x1_S1000000x64_1_0_n_n_0_1_164_wf
def gather_S16x1_S1000000x1_S1000000x1_1_0_n_n_0_1_11 : GatherDims S16x1 S1000000x1 S1000000x1 where
  offsetDims := [1]
  collapsedSliceDims := [0]
  operandBatchingDims := []
  startIndicesBatchingDims := []
  startIndexMap := [0]
  indexVectorDim := 1
  sliceSizes := ![1, 1]
  wf := gather_S16x1_S1000000x1_S1000000x1_1_0_n_n_0_1_11_wf

class Facts : Prop extends Facts₀ where

variable [Facts]
-- ==== Proof.Spec.lean ====
/-
  What both programs compute, stated once over the argument arrays.

  Rows n < 1000000 carry a context number, the signed reading of the word a1[n, 0]. Per context k < 16 the
  statistics are the number of rows of the context, the column sums of those rows and the column sums of their
  squares. From the three statistics and γ, β, priors a chain of sixteen-by-sixty-four operations gives a scale
  and a shift per context and column; both programs apply the SAME chain, which is therefore carried as two
  functions that are never opened. Row n of the result is x[n, ·] · scale[k, ·] + shift[k, ·] at the row's own
  context k.
-/
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![1000000, 64]⟩
abbrev SC : Shape := ⟨2, ![1000000, 1]⟩
abbrev SG : Shape := ⟨2, ![16, 64]⟩
abbrev SK : Shape := ⟨2, ![16, 1]⟩
abbrev SP : Shape := ⟨1, ![16]⟩
abbrev S0 : Shape := ⟨0, ![]⟩
abbrev SXp : Shape := ⟨2, ![1004800, 64]⟩
abbrev SCp : Shape := ⟨2, ![1, 1004800]⟩

theorem bc_0_K : S0.BroadcastsInDim SK (![] : Fin 0 → Fin SK.rank) := by decide
theorem bc_0_G : S0.BroadcastsInDim SG (![] : Fin 0 → Fin SG.rank) := by decide
theorem bc_K_G : SK.BroadcastsInDim SG (![0, 1] : Fin 2 → Fin SG.rank) := by decide
theorem bc_P_K : SP.BroadcastsInDim SK (![0] : Fin 1 → Fin SK.rank) := by decide

/-! ## The statistics of the rows of one context -/

/-- How many rows carry context `i 0`. -/
def cnt (a1 : IVec SC 32) : FVec Ideal SK .f32 := fun i =>
  ∑ n : Fin 1000000, if (a1 (ix2 n (0 : Fin 1))).toInt = ((i 0).val : Int) then (1 : EReal) else 0

/-- The sum over the rows of context `i 0` of column `i 1`. -/
def sum1 (a0 : FVec Ideal SX .f32) (a1 : IVec SC 32) : FVec Ideal SG .f32 := fun i =>
  ∑ n : Fin 1000000, if (a1 (ix2 n (0 : Fin 1))).toInt = ((i 0).val : Int) then (a0 (ix2 n (i 1)) : EReal) else 0

/-- The sum over the rows of context `i 0` of the square of column `i 1`. -/
def sum2 (a0 : FVec Ideal SX .f32) (a1 : IVec SC 32) : FVec Ideal SG .f32 := fun i =>
  ∑ n : Fin 1000000, if (a1 (ix2 n (0 : Fin 1))).toInt = ((i 0).val : Int)
    then ((a0 (ix2 n (i 1)) : EReal) * a0 (ix2 n (i 1))) else 0

/-! ## The chain both programs apply to the statistics -/

section chain
variable {F : FTy → Type} [FloatOps F]

/-- max(count, 1), spread over the columns. -/
def safeCnt (c : FVec F SK .f32) : FVec F SG .f32 :=
  broadcastInDim SG ![0, 1] bc_K_G (maximumf c (broadcastInDim SK ![] bc_0_K (constant S0 .f32 0x3F800000#32)))

/-- The mean: the column sums over max(count, 1). -/
def meanOf (c : FVec F SK .f32) (s1 : FVec F SG .f32) : FVec F SG .f32 := Host.divf s1 (safeCnt c)

/-- 1 / sqrt(variance + 0.001), the variance being the mean of the squares less the square of the mean. -/
def invStdOf (c : FVec F SK .f32) (s1 s2 : FVec F SG .f32) : FVec F SG .f32 :=
  Host.rsqrt (addf (subf (Host.divf s2 (safeCnt c)) (mulf (meanOf c s1) (meanOf c s1)))
    (broadcastInDim SG ![] bc_0_G (constant S0 .f32 0x3A83126F#32)))

/-- 1 / sqrt(prior) of each context, spread over the columns. -/
def priorScale (p : FVec F SP .f32) : FVec F SG .f32 :=
  broadcastInDim SG ![0, 1] bc_K_G (broadcastInDim SK ![0] bc_P_K (Host.rsqrt p))

/-- The scale per context and column. -/
def scaleOf (c : FVec F SK .f32) (s1 s2 g : FVec F SG .f32) (p : FVec F SP .f32) : FVec F SG .f32 :=
  mulf (mulf g (invStdOf c s1 s2)) (priorScale p)

/-- The shift per context and column. -/
def shiftOf (c : FVec F SK .f32) (s1 s2 g b : FVec F SG .f32) (p : FVec F SP .f32) : FVec F SG .f32 :=
  mulf (subf b (mulf (mulf g (meanOf c s1)) (invStdOf c s1 s2))) (priorScale p)

/-- The kernel's guard: keep `s` at the contexts that have a row, the constant `z` elsewhere. -/
def guard (z : BitVec 32) (c : FVec F SK .f32) (s : FVec F SG .f32) : FVec F SG .f32 :=
  select (broadcastInDim SG ![0, 1] bc_K_G (cmpf .ogt c (broadcastInDim SK ![] bc_0_K (constant S0 .f32 0x00000000#32))))
    s (broadcastInDim SG ![] bc_0_G (constant S0 .f32 z))

end chain

/-! ## The kernel's padded inputs and its second pass -/

section padded
variable {F : FTy → Type} [FloatOps F]

/-- The samples with 4800 zero rows appended. -/
def padX (a0 : FVec F SX .f32) : FVec F SXp .f32 := fun i =>
  if h : (i 0).val < 1000000 then a0 (ix2 ⟨(i 0).val, h⟩ (i 1)) else FloatOps.ofBits .f32 0x00000000#32

/-- The context numbers as one row, with 4800 words −1 appended. -/
def padC (a1 : IVec SC 32) : IVec SCp 32 := fun i =>
  if h : (i 1).val < 1000000 then a1 (ix2 ⟨(i 1).val, h⟩ (0 : Fin 1)) else 4294967295#32

end padded

/-- The first 1000000 rows of a padded array. -/
def sliceX {F : FTy → Type} [FloatOps F] (y : FVec F SXp .f32) : FVec F SX .f32 := fun i =>
  y (ix2 (⟨(i 0).val, Nat.lt_trans (i 0).isLt (by decide)⟩ : Fin 1004800) (i 1))

/-- The indicator of "word w names context k", as an extended real. -/
def hot (w : BitVec 32) (k : Fin 16) : EReal := if w.toInt = (k.val : Int) then 1 else 0

/-- The kernel's first pass over the padded rows, as flat sums over all 1004800 rows. -/
def cntP (cp : IVec SCp 32) : FVec Ideal SK .f32 := fun i =>
  ∑ n : Fin 1004800, hot (cp (ix2 (0 : Fin 1) n)) ⟨(i 0).val, (i 0).isLt⟩
def sum1P (xp : FVec Ideal SXp .f32) (cp : IVec SCp 32) : FVec Ideal SG .f32 := fun i =>
  ∑ n : Fin 1004800, hot (cp (ix2 (0 : Fin 1) n)) ⟨(i 0).val, (i 0).isLt⟩ * xp (ix2 n (i 1))
def sum2P (xp : FVec Ideal SXp .f32) (cp : IVec SCp 32) : FVec Ideal SG .f32 := fun i =>
  ∑ n : Fin 1004800, hot (cp (ix2 (0 : Fin 1) n)) ⟨(i 0).val, (i 0).isLt⟩ * (xp (ix2 n (i 1)) * xp (ix2 n (i 1)))

/-- The kernel's second pass at a padded row: the row times the scale its context selects, plus the shift it selects,
    each selection a sum over the sixteen contexts against the indicator. -/
def applyP (xp : FVec Ideal SXp .f32) (cp : IVec SCp 32) (sc sh : FVec Ideal SG .f32) : FVec Ideal SXp .f32 := fun i =>
  xp i * (∑ k : Fin 16, hot (cp (ix2 (0 : Fin 1) (i 0))) k * sc (ix2 k (i 1)))
    + ∑ k : Fin 16, hot (cp (ix2 (0 : Fin 1) (i 0))) k * sh (ix2 k (i 1))

/-! ## The common result -/

/-- The context of row n as an index below 16 (the word's low four bits: the word itself when it is in range). -/
def ctxOf (a1 : IVec SC 32) (n : Fin 1000000) : Fin 16 := ⟨(a1 (ix2 n (0 : Fin 1))).toNat % 16, Nat.mod_lt _ (by decide)⟩

/-- Row by row: x · scale + shift at the row's context. -/
def result (a0 : FVec Ideal SX .f32) (a1 : IVec SC 32) (a2 a3 : FVec Ideal SG .f32) (a4 : FVec Ideal SP .f32) :
    FVec Ideal SX .f32 := fun i =>
  a0 i * scaleOf (cnt a1) (sum1 a0 a1) (sum2 a0 a1) a2 a4 (ix2 (ctxOf a1 (i 0)) (i 1))
    + shiftOf (cnt a1) (sum1 a0 a1) (sum2 a0 a1) a2 a3 a4 (ix2 (ctxOf a1 (i 0)) (i 1))

/-- The hypothesis the added precondition gives: every context number lies in [0, 16). -/
def InRange (a1 : IVec SC 32) : Prop :=
  ∀ n : Fin 1000000, 0 ≤ (a1 (ix2 n (0 : Fin 1))).toInt ∧ (a1 (ix2 n (0 : Fin 1))).toInt < 16

end Cert.Spec

end
-- ==== Proof.Math.lean ====
/-
  The arithmetic that joins the kernel's two passes to the common result.

  * A sum over the sixteen contexts against the indicator of "the word names context k" picks the entry at the word's
    own context, whatever the entries are (0 · y = 0 and 1 · y = y on all of the extended reals).
  * The 4800 appended rows carry the word −1, which names no context: the flat sums over the padded rows are the sums
    over the true rows.
  * A row's own context counts at least that row, so its count is positive and the kernel's guard keeps the chain's value there.
-/
import proofs.«412077_j73332271612492_1_alg».proof.Proof.Spec
import Idealize.ShloMosaic.PureOps.Ideal.Laws
import Idealize.ShloMosaic.Lib.Pipeline.Value
import Mathlib.Algebra.BigOperators.Fin

noncomputable section

open scoped BigOperators

namespace Cert.Spec

open Idealize.ShloMosaic Idealize.ShloMosaic.ValueIdx

/-! ## Words in range -/

/-- A word whose signed reading is nonnegative reads the same unsigned. -/
theorem toInt_eq_toNat_of_nonneg (w : BitVec 32) (h : 0 ≤ w.toInt) : w.toInt = (w.toNat : Int) := by
  rw [BitVec.toInt_eq_toNat_cond] at h ⊢
  split_ifs at h ⊢ with h1
  · rfl
  · have := w.isLt; omega

/-- The context a word in range names. -/
theorem toNat_lt_of_inRange (w : BitVec 32) (h0 : 0 ≤ w.toInt) (h1 : w.toInt < 16) : w.toNat < 16 := by
  have := toInt_eq_toNat_of_nonneg w h0; omega

/-! ## The selection -/

/-- The indicator against a word in range picks the entry at the word's context. -/
theorem sum_hot_mul (w : BitVec 32) (h0 : 0 ≤ w.toInt) (h1 : w.toInt < 16) (s : Fin 16 → EReal) :
    ∑ k : Fin 16, hot w k * s k = s ⟨w.toNat % 16, Nat.mod_lt _ (by decide)⟩ := by
  have hlt := toNat_lt_of_inRange w h0 h1
  have he := toInt_eq_toNat_of_nonneg w h0
  rw [Finset.sum_eq_single (⟨w.toNat % 16, Nat.mod_lt _ (by decide)⟩ : Fin 16)]
  · unfold hot
    rw [if_pos (by show w.toInt = ((w.toNat % 16 : Nat) : Int); rw [Nat.mod_eq_of_lt hlt]; exact he), one_mul]
  · intro k _ hk
    unfold hot
    rw [if_neg, zero_mul]
    intro hw
    apply hk
    apply Fin.ext
    show k.val = w.toNat % 16
    rw [Nat.mod_eq_of_lt hlt]; omega
  · intro h; exact absurd (Finset.mem_univ _) h

/-- The appended word −1 names no context. -/
theorem hot_pad (k : Fin 16) : hot 4294967295#32 k = 0 := by
  unfold hot
  rw [if_neg]
  have : (4294967295#32 : BitVec 32).toInt = -1 := by decide
  rw [this]; omega

/-! ## The padded rows add nothing -/

/-- A sum over a + b indices whose last b terms vanish is the sum of the first a. -/
theorem sum_front {M : Type*} [AddCommMonoid M] (a b : ℕ) (f : Fin (a + b) → M) (g : Fin a → M)
    (h1 : ∀ n : Fin a, f (Fin.castAdd b n) = g n) (h2 : ∀ n : Fin b, f (Fin.natAdd a n) = 0) :
    ∑ n, f n = ∑ n, g n := by
  rw [Fin.sum_univ_add, Finset.sum_congr rfl (fun n _ => h1 n), Finset.sum_congr rfl (fun n _ => h2 n),
    Finset.sum_const_zero, add_zero]

theorem padC_front (a1 : IVec SC 32) (n : Fin 1000000) :
    padC a1 (ix2 (0 : Fin 1) (Fin.castAdd 4800 n : Fin 1004800)) = a1 (ix2 n (0 : Fin 1)) := by
  unfold padC
  rw [dif_pos (show ((ix2 (0 : Fin 1) (Fin.castAdd 4800 n : Fin 1004800)) 1).val < 1000000 from n.isLt)]
  rfl

theorem padC_back (a1 : IVec SC 32) (n : Fin 4800) :
    padC a1 (ix2 (0 : Fin 1) (Fin.natAdd 1000000 n : Fin 1004800)) = 4294967295#32 := by
  unfold padC
  rw [dif_neg (show ¬ ((ix2 (0 : Fin 1) (Fin.natAdd 1000000 n : Fin 1004800)) 1).val < 1000000 from by
    show ¬ (1000000 + n.val < 1000000); omega)]

theorem padX_front (a0 : FVec Ideal SX .f32) (n : Fin 1000000) (d : Fin 64) :
    padX (F := Ideal) a0 (ix2 (Fin.castAdd 4800 n : Fin 1004800) d) = a0 (ix2 n d) := by
  unfold padX
  rw [dif_pos (show ((ix2 (Fin.castAdd 4800 n : Fin 1004800) d) 0).val < 1000000 from n.isLt)]
  rfl

theorem cntP_pad (a1 : IVec SC 32) : cntP (padC a1) = cnt a1 := by
  funext i
  obtain ⟨k, z, rfl⟩ : ∃ (k : Fin 16) (z : Fin 1), i = ix2 k z := ⟨i 0, i 1, eq_ix2 i⟩
  show ∑ n : Fin (1000000 + 4800), hot (padC a1 (ix2 (0 : Fin 1) n)) k
    = ∑ n : Fin 1000000, if (a1 (ix2 n (0 : Fin 1))).toInt = (k.val : Int) then (1 : EReal) else 0
  refine sum_front 1000000 4800 _ _ (fun n => ?_) (fun n => ?_)
  · rw [padC_front]; rfl
  · rw [padC_back, hot_pad]

theorem hot_mul (w : BitVec 32) (k : Fin 16) (y : EReal) :
    hot w k * y = if w.toInt = (k.val : Int) then y else 0 := by
  unfold hot
  split_ifs
  · exact one_mul y
  · exact zero_mul y

theorem sum1P_pad (a0 : FVec Ideal SX .f32) (a1 : IVec SC 32) : sum1P (padX a0) (padC a1) = sum1 a0 a1 := by
  funext i
  obtain ⟨k, d, rfl⟩ : ∃ (k : Fin 16) (d : Fin 64), i = ix2 k d := ⟨i 0, i 1, eq_ix2 i⟩
  show ∑ n : Fin (1000000 + 4800), hot (padC a1 (ix2 (0 : Fin 1) n)) k * padX (F := Ideal) a0 (ix2 n d)
    = ∑ n : Fin 1000000, if (a1 (ix2 n (0 : Fin 1))).toInt = (k.val : Int) then (a0 (ix2 n d) : EReal) else 0
  refine sum_front 1000000 4800 _ _ (fun n => ?_) (fun n => ?_)
  · rw [padC_front, padX_front]; exact hot_mul _ _ _
  · rw [padC_back, hot_pad, zero_mul]

theorem sum2P_pad (a0 : FVec Ideal SX .f32) (a1 : IVec SC 32) : sum2P (padX a0) (padC a1) = sum2 a0 a1 := by
  funext i
  obtain ⟨k, d, rfl⟩ : ∃ (k : Fin 16) (d : Fin 64), i = ix2 k d := ⟨i 0, i 1, eq_ix2 i⟩
  show ∑ n : Fin (1000000 + 4800), hot (padC a1 (ix2 (0 : Fin 1) n)) k
      * (padX (F := Ideal) a0 (ix2 n d) * padX (F := Ideal) a0 (ix2 n d))
    = ∑ n : Fin 1000000, if (a1 (ix2 n (0 : Fin 1))).toInt = (k.val : Int)
        then ((a0 (ix2 n d) : EReal) * a0 (ix2 n d)) else 0
  refine sum_front 1000000 4800 _ _ (fun n => ?_) (fun n => ?_)
  · rw [padC_front, padX_front]; exact hot_mul _ _ _
  · rw [padC_back, hot_pad, zero_mul]

/-! ## A row's own context has a row -/

/-- The indicator of one fixed context is 0 or 1: nonnegative. -/
theorem ind_nonneg (p : Prop) [Decidable p] : (0 : EReal) ≤ if p then (1 : EReal) else 0 := by
  split_ifs
  · exact zero_le_one
  · exact le_refl 0

/-- A context that some row carries has a positive count. -/
theorem cnt_pos_aux (a1 : IVec SC 32) (k : Fin 16) (n : Fin 1000000)
    (hk : (a1 (ix2 n (0 : Fin 1))).toInt = (k.val : Int)) : (0 : EReal) < cnt a1 (ix2 k (0 : Fin 1)) := by
  show (0 : EReal) < ∑ n' : Fin 1000000, if (a1 (ix2 n' (0 : Fin 1))).toInt = (k.val : Int) then (1 : EReal) else 0
  refine lt_of_lt_of_le zero_lt_one ?_
  have hle := Finset.single_le_sum (s := (Finset.univ : Finset (Fin 1000000)))
    (f := fun n' : Fin 1000000 => if (a1 (ix2 n' (0 : Fin 1))).toInt = (k.val : Int) then (1 : EReal) else 0)
    (fun n' _ => ind_nonneg _) (Finset.mem_univ n)
  rw [if_pos hk] at hle
  exact hle

theorem cnt_pos (a1 : IVec SC 32) (h : InRange a1) (n : Fin 1000000) :
    (0 : EReal) < cnt a1 (ix2 (ctxOf a1 n) (0 : Fin 1)) := by
  obtain ⟨h0, h1⟩ := h n
  have hlt := toNat_lt_of_inRange _ h0 h1
  have he := toInt_eq_toNat_of_nonneg _ h0
  have hk : (a1 (ix2 n (0 : Fin 1))).toInt = ((ctxOf a1 n).val : Int) := by
    show (a1 (ix2 n (0 : Fin 1))).toInt = (((a1 (ix2 n (0 : Fin 1))).toNat % 16 : Nat) : Int)
    rw [Nat.mod_eq_of_lt hlt]; exact he
  exact cnt_pos_aux a1 (ctxOf a1 n) n hk

/-! ## The guard at a context that has a row -/

theorem guard_apply (z : BitVec 32) (c : FVec Ideal SK .f32) (s : FVec Ideal SG .f32) (k : Fin 16) (d : Fin 64)
    (hpos : (0 : EReal) < c (ix2 k (0 : Fin 1))) : guard (F := Ideal) z c s (ix2 k d) = s (ix2 k d) := by
  unfold guard
  rw [select_apply,
    broadcastInDim_apply _ bc_K_G _ (ix2 k d) (ix2 k (0 : Fin 1)) (fun a => by
      match a with
      | ⟨0, _⟩ => rfl
      | ⟨1, _⟩ => rfl),
    cmpf_apply,
    broadcastInDim_apply _ bc_0_K _ (ix2 k (0 : Fin 1)) ix0 (fun a => a.elim0),
    constant_apply, Ideal.ofBits_zero_f32]
  have : FloatOps.cmpf (F := Ideal) .ogt (c (ix2 k (0 : Fin 1))) (0 : EReal) = 1#1 := by
    show Ideal.cmp .ogt _ _ = 1#1
    unfold Ideal.cmp
    simp [hpos]
  rw [this, select_one]

/-! ## The kernel's two passes give the common result -/

theorem kernel_result (a0 : FVec Ideal SX .f32) (a1 : IVec SC 32) (a2 a3 : FVec Ideal SG .f32) (a4 : FVec Ideal SP .f32)
    (h : InRange a1) :
    sliceX (F := Ideal) (applyP (padX a0) (padC a1)
        (guard 0x3F800000#32 (cnt a1) (scaleOf (cnt a1) (sum1 a0 a1) (sum2 a0 a1) a2 a4))
        (guard 0x00000000#32 (cnt a1) (shiftOf (cnt a1) (sum1 a0 a1) (sum2 a0 a1) a2 a3 a4)))
      = result a0 a1 a2 a3 a4 := by
  funext i
  obtain ⟨n, d, rfl⟩ : ∃ (n : Fin 1000000) (d : Fin 64), i = ix2 n d := ⟨i 0, i 1, eq_ix2 i⟩
  obtain ⟨h0, h1⟩ := h n
  have hx : padX (F := Ideal) a0 (ix2 (⟨n.val, Nat.lt_trans n.isLt (by decide)⟩ : Fin 1004800) d) = a0 (ix2 n d) :=
    padX_front a0 n d
  have hc : padC a1 (ix2 (0 : Fin 1) (⟨n.val, Nat.lt_trans n.isLt (by decide)⟩ : Fin 1004800)) = a1 (ix2 n (0 : Fin 1)) :=
    padC_front a1 n
  show applyP _ _ _ _ (ix2 (⟨n.val, _⟩ : Fin 1004800) d) = _
  unfold applyP result
  show padX (F := Ideal) a0 (ix2 (⟨n.val, _⟩ : Fin 1004800) d)
      * (∑ k : Fin 16, hot (padC a1 (ix2 (0 : Fin 1) (⟨n.val, _⟩ : Fin 1004800))) k * _)
      + ∑ k : Fin 16, hot (padC a1 (ix2 (0 : Fin 1) (⟨n.val, _⟩ : Fin 1004800))) k * _ = _
  rw [hx, hc, sum_hot_mul _ h0 h1 (fun k => guard (F := Ideal) 0x3F800000#32 (cnt a1) _ (ix2 k d)),
    sum_hot_mul _ h0 h1 (fun k => guard (F := Ideal) 0x00000000#32 (cnt a1) _ (ix2 k d))]
  have hk : (⟨(a1 (ix2 n (0 : Fin 1))).toNat % 16, Nat.mod_lt _ (by decide)⟩ : Fin 16) = ctxOf a1 n := rfl
  rw [hk, guard_apply _ _ _ _ _ (cnt_pos a1 h n), guard_apply _ _ _ _ _ (cnt_pos a1 h n)]

end Cert.Spec

end
-- ==== Proof.KHost.lean ====
/-
  The host operations of the kernel's program read back: what the two regions find in the arrays they stage, and what
  the last operation leaves in the result buffer.
-/
import proofs.«412077_j73332271612492_1_alg».proof.Proof.Spec
import proofs.«412077_j73332271612492_1_alg».proof.Proof.Gen.KernelIdeal.Frame
import Idealize.ShloMosaic.Lib.StableHlo.Run
import Idealize.ShloMosaic.Lib.KernelVsHost
import Idealize.ShloMosaic.Lib.Pipeline.Value

noncomputable section

namespace Cert.KernelIdeal.KHost

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- A buffer that no operation of a stretch writes holds after the stretch what it held before. -/
local macro "not_written " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

open Idealize.ShloMosaic.ValueIdx

/-! ## Index by index: the two pads and the slice -/

/-- The samples padded with the converted integer zero are the samples with zero rows appended. -/
theorem pad_rows_eq (x : FVec Ideal S1000000x64 .f32) :
    pad S1004800x64 ![0, 0] ![4800, 0] ![0, 0] x (sitofp (F := Ideal) .f32 (constantI S_ 32 0#32))
        pads_S1000000x64_S1004800x64_048000_000 h_S_
      = Cert.Spec.padX (F := Ideal) x := by
  funext i
  unfold Cert.Spec.padX
  by_cases h : (i 0).val < 1000000
  · rw [dif_pos h]
    exact pad_apply_of_inside _ _ _ x _ _ _ i (ix2 ⟨(i 0).val, h⟩ (i 1)) (fun a => match a with
      | ⟨0, _⟩ => by show (i 0).val = 0 + (i 0).val * (0 + 1); omega
      | ⟨1, _⟩ => by show (i 1).val = 0 + (i 1).val * (0 + 1); omega)
  · rw [dif_neg h]
    refine (pad_apply_of_not_inside _ _ _ x _ _ _ i (0 : Fin 2) ?_).trans ?_
    · intro hh
      have h3 := hh.2.2
      change ((i 0).val - 0) / (0 + 1) < 1000000 at h3
      omega
    · exact (sitofp_zero (φ := .f32)).trans Ideal.ofBits_zero_f32.symm

/-- The context column read as a vector, padded with the word −1 and read as one row. -/
theorem pad_ctx_eq (x : IVec S1000000x1 32) :
    shapeCast S1x1004800
        (pad S1004800 ![0] ![4800] ![0] (shapeCast S1000000 x shapeCasts_S1000000x1_S1000000)
          (constantI S_ 32 4294967295#32) pads_S1000000_S1004800_048000 h_S_)
        shapeCasts_S1004800_S1x1004800
      = Cert.Spec.padC x := by
  funext i
  unfold Cert.Spec.padC
  refine (shapeCast_apply _ _ i (ix1 (i 1)) ?_).trans ?_
  · rw [Shape.rowMajor_val_two, Shape.rowMajor_val_one]
    have h0 : (i 0).val < 1 := (i 0).isLt
    show (i 1).val = (i 0).val * 1004800 + (i 1).val
    omega
  by_cases h : (i 1).val < 1000000
  · rw [dif_pos h]
    refine (pad_apply_of_inside _ _ _ _ _ _ _ (ix1 (i 1)) (ix1 ⟨(i 1).val, h⟩) (fun a => match a with
      | ⟨0, _⟩ => by show (i 1).val = 0 + (i 1).val * (0 + 1); omega)).trans ?_
    refine shapeCast_apply _ _ _ _ ?_
    rw [Shape.rowMajor_val_two, Shape.rowMajor_val_one]
    show (i 1).val * 1 + 0 = (i 1).val
    omega
  · rw [dif_neg h]
    refine (pad_apply_of_not_inside _ _ _ _ _ _ _ (ix1 (i 1)) (0 : Fin 1) ?_).trans rfl
    intro hh
    have h3 := hh.2.2
    change ((i 1).val - 0) / (0 + 1) < 1000000 at h3
    omega

/-- The slice at offset (0, 0) keeps the first 1000000 rows. -/
theorem slice_rows_eq (y : FVec Ideal S1004800x64 .f32) :
    extractStridedSlice S1000000x64 ![0, 0] y slices_S1004800x64_S1000000x64_0_0 = Cert.Spec.sliceX (F := Ideal) y := by
  funext i
  unfold Cert.Spec.sliceX
  exact extractStridedSlice_apply _ y _ i _ (fun a => match a with
    | ⟨0, _⟩ => by show (i 0).val = 0 + (i 0).val; omega
    | ⟨1, _⟩ => by show (i 1).val = 0 + (i 1).val; omega)

/-! ## What one stretch of operations leaves at one buffer, over any contents before it -/

section Stretches
variable (V : Valuation τ sig (Elt Ideal))

/-- The context column read as a vector. -/
theorem after0_2_v1 :
    @Eq (IVec S1000000 32) (StableHlo.after hostOps0_2 V (Proc.devRef .tc main_v1))
      (shapeCast S1000000 (V (Proc.devRef .tc main_arg1) : IVec S1000000x1 32) shapeCasts_S1000000x1_S1000000) := by
  dsimp only [Gen.hostOps0_2]
  after_results
  rfl

/-- The word −1. -/
theorem after0_2_c0 :
    @Eq (IVec S_ 32) (StableHlo.after hostOps0_2 V (Proc.devRef .tc main_c_0)) (constantI S_ 32 4294967295#32) := by
  dsimp only [Gen.hostOps0_2]
  after_results

/-- The pad of the context vector. -/
theorem after0_3_v2 :
    @Eq (IVec S1004800 32) (StableHlo.after hostOps0_3 V (Proc.devRef .tc main_v2))
      (pad S1004800 ![0] ![4800] ![0] (V (Proc.devRef .tc main_v1) : IVec S1000000 32) (V (Proc.devRef .tc main_c_0) : IVec S_ 32)
        pads_S1000000_S1004800_048000 h_S_) := by
  dsimp only [Gen.hostOps0_3]
  after_results
  rfl

/-- The padded context vector read as one row. -/
theorem after0_4_v3 :
    @Eq (IVec S1x1004800 32) (StableHlo.after hostOps0_4 V (Proc.devRef .tc main_v3))
      (shapeCast S1x1004800 (V (Proc.devRef .tc main_v2) : IVec S1004800 32) shapeCasts_S1004800_S1x1004800) := by
  dsimp only [Gen.hostOps0_4]
  after_results
  rfl

/-- The scale before the guard: the shared chain on the three statistics, γ and the priors. -/
theorem after1_v20 :
    @Eq (FVec Ideal S16x64 .f32) (StableHlo.after hostOps1 V (Proc.devRef .tc main_v20))
      (Cert.Spec.scaleOf (F := Ideal) (V (Proc.devRef .tc main_v4_0)) (V (Proc.devRef .tc main_v4_1)) (V (Proc.devRef .tc main_v4_2))
        (V (Proc.devRef .tc main_arg2)) (V (Proc.devRef .tc main_arg4))) := by
  dsimp only [Gen.hostOps1]
  after_results_simp
  unfold Cert.Spec.scaleOf Cert.Spec.invStdOf Cert.Spec.meanOf Cert.Spec.priorScale Cert.Spec.safeCnt
  rfl

/-- The shift before the guard: the shared chain on the three statistics, γ, β and the priors. -/
theorem after1_v25 :
    @Eq (FVec Ideal S16x64 .f32) (StableHlo.after hostOps1 V (Proc.devRef .tc main_v25))
      (Cert.Spec.shiftOf (F := Ideal) (V (Proc.devRef .tc main_v4_0)) (V (Proc.devRef .tc main_v4_1)) (V (Proc.devRef .tc main_v4_2))
        (V (Proc.devRef .tc main_arg2)) (V (Proc.devRef .tc main_arg3)) (V (Proc.devRef .tc main_arg4))) := by
  dsimp only [Gen.hostOps1]
  after_results_simp
  unfold Cert.Spec.shiftOf Cert.Spec.invStdOf Cert.Spec.meanOf Cert.Spec.priorScale Cert.Spec.safeCnt
  rfl

/-- The guard's condition: the count is positive. -/
theorem after1_v27 :
    @Eq (IVec S16x1 1) (StableHlo.after hostOps1 V (Proc.devRef .tc main_v27))
      (cmpf .ogt (V (Proc.devRef .tc main_v4_0) : FVec Ideal S16x1 .f32)
        (broadcastInDim S16x1 ![] bcast_S_S16x1 (constant (F := Ideal) S_ .f32 0x00000000#32))) := by
  dsimp only [Gen.hostOps1]
  after_results_simp

/-- The constant 1 of the first guard. -/
theorem after1_cst3 :
    @Eq (FVec Ideal S_ .f32) (StableHlo.after hostOps1 V (Proc.devRef .tc main_cst_3)) (constant (F := Ideal) S_ .f32 0x3F800000#32) := by
  dsimp only [Gen.hostOps1]
  after_results_simp

/-- The first guard's select. -/
theorem after1_1_v28 :
    @Eq (FVec Ideal S16x64 .f32) (StableHlo.after hostOps1_1 V (Proc.devRef .tc main_v28))
      (select (broadcastInDim S16x64 ![0, 1] bcast_S16x1_S16x64_0_1 (V (Proc.devRef .tc main_v27) : IVec S16x1 1))
        (V (Proc.devRef .tc main_v20) : FVec Ideal S16x64 .f32)
        (broadcastInDim S16x64 ![] bcast_S_S16x64 (V (Proc.devRef .tc main_cst_3) : FVec Ideal S_ .f32))) := by
  dsimp only [Gen.hostOps1_1]
  after_results
  rfl

/-- The constant 0 of the second guard. -/
theorem after1_2_cst4 :
    @Eq (FVec Ideal S_ .f32) (StableHlo.after hostOps1_2 V (Proc.devRef .tc main_cst_4)) (constant (F := Ideal) S_ .f32 0x00000000#32) := by
  dsimp only [Gen.hostOps1_2]
  after_results

/-- The second guard's select. -/
theorem after1_3_v29 :
    @Eq (FVec Ideal S16x64 .f32) (StableHlo.after hostOps1_3 V (Proc.devRef .tc main_v29))
      (select (broadcastInDim S16x64 ![0, 1] bcast_S16x1_S16x64_0_1 (V (Proc.devRef .tc main_v27) : IVec S16x1 1))
        (V (Proc.devRef .tc main_v25) : FVec Ideal S16x64 .f32)
        (broadcastInDim S16x64 ![] bcast_S_S16x64 (V (Proc.devRef .tc main_cst_4) : FVec Ideal S_ .f32))) := by
  dsimp only [Gen.hostOps1_3]
  after_results
  rfl

end Stretches

/-! ## The walks through the fold -/

/-- No operation before region 0, and not region 0, writes `main_arg2`: it is as launched. -/
theorem w6_arg2 (c : Dev nD) : Gen.W6 m ρ c (Proc.devRef .tc main_arg2) = m ((c : Thread nD τ).loc main_arg2) :=
  calc Gen.W6 m ρ c (Proc.devRef .tc main_arg2)
    _ = Gen.W5 m ρ c (Proc.devRef .tc main_arg2) := Gen.W6_of_ne m ρ c main_arg2 (by decide)
    _ = Gen.W4 m ρ c (Proc.devRef .tc main_arg2) := by not_written hostOps0_4
    _ = Gen.W3 m ρ c (Proc.devRef .tc main_arg2) := by not_written hostOps0_3
    _ = Gen.W2 m ρ c (Proc.devRef .tc main_arg2) := by not_written hostOps0_2
    _ = Gen.W1 m ρ c (Proc.devRef .tc main_arg2) := by not_written hostOps0_1
    _ = Gen.W0 m ρ c (Proc.devRef .tc main_arg2) := by not_written hostOps0
    _ = m ((c : Thread nD τ).loc main_arg2) := rfl

/-- No operation before region 0, and not region 0, writes `main_arg3`: it is as launched. -/
theorem w6_arg3 (c : Dev nD) : Gen.W6 m ρ c (Proc.devRef .tc main_arg3) = m ((c : Thread nD τ).loc main_arg3) :=
  calc Gen.W6 m ρ c (Proc.devRef .tc main_arg3)
    _ = Gen.W5 m ρ c (Proc.devRef .tc main_arg3) := Gen.W6_of_ne m ρ c main_arg3 (by decide)
    _ = Gen.W4 m ρ c (Proc.devRef .tc main_arg3) := by not_written hostOps0_4
    _ = Gen.W3 m ρ c (Proc.devRef .tc main_arg3) := by not_written hostOps0_3
    _ = Gen.W2 m ρ c (Proc.devRef .tc main_arg3) := by not_written hostOps0_2
    _ = Gen.W1 m ρ c (Proc.devRef .tc main_arg3) := by not_written hostOps0_1
    _ = Gen.W0 m ρ c (Proc.devRef .tc main_arg3) := by not_written hostOps0
    _ = m ((c : Thread nD τ).loc main_arg3) := rfl

/-- No operation before region 0, and not region 0, writes `main_arg4`: it is as launched. -/
theorem w6_arg4 (c : Dev nD) : Gen.W6 m ρ c (Proc.devRef .tc main_arg4) = m ((c : Thread nD τ).loc main_arg4) :=
  calc Gen.W6 m ρ c (Proc.devRef .tc main_arg4)
    _ = Gen.W5 m ρ c (Proc.devRef .tc main_arg4) := Gen.W6_of_ne m ρ c main_arg4 (by decide)
    _ = Gen.W4 m ρ c (Proc.devRef .tc main_arg4) := by not_written hostOps0_4
    _ = Gen.W3 m ρ c (Proc.devRef .tc main_arg4) := by not_written hostOps0_3
    _ = Gen.W2 m ρ c (Proc.devRef .tc main_arg4) := by not_written hostOps0_2
    _ = Gen.W1 m ρ c (Proc.devRef .tc main_arg4) := by not_written hostOps0_1
    _ = Gen.W0 m ρ c (Proc.devRef .tc main_arg4) := by not_written hostOps0
    _ = m ((c : Thread nD τ).loc main_arg4) := rfl

/-- Between the regions no operation writes `main_v0`, and region 0 only reads it (its window 0). -/
theorem w10_v0 (c : Dev nD) : Gen.W10 m ρ c (Proc.devRef .tc main_v0) = Gen.W5 m ρ c (Proc.devRef .tc main_v0) :=
  calc Gen.W10 m ρ c (Proc.devRef .tc main_v0)
    _ = Gen.W9 m ρ c (Proc.devRef .tc main_v0) := by not_written hostOps1_3
    _ = Gen.W8 m ρ c (Proc.devRef .tc main_v0) := by not_written hostOps1_2
    _ = Gen.W7 m ρ c (Proc.devRef .tc main_v0) := by not_written hostOps1_1
    _ = Gen.W6 m ρ c (Proc.devRef .tc main_v0) := by not_written hostOps1
    _ = (Gen.dat0 (Gen.V5 m ρ) c).arrAt (0 : Fin cfg0.W) cfg0.N := Gen.W6_arr m ρ c (0 : Fin cfg0.W)
    _ = Gen.W5 m ρ c (Proc.devRef .tc main_v0) := (Gen.dat0 (Gen.V5 m ρ) c).arrAt_in (0 : Fin cfg0.W) rfl cfg0.N

/-- Between the regions no operation writes `main_v3`, and region 0 only reads it (its window 1). -/
theorem w10_v3 (c : Dev nD) : Gen.W10 m ρ c (Proc.devRef .tc main_v3) = Gen.W5 m ρ c (Proc.devRef .tc main_v3) :=
  calc Gen.W10 m ρ c (Proc.devRef .tc main_v3)
    _ = Gen.W9 m ρ c (Proc.devRef .tc main_v3) := by not_written hostOps1_3
    _ = Gen.W8 m ρ c (Proc.devRef .tc main_v3) := by not_written hostOps1_2
    _ = Gen.W7 m ρ c (Proc.devRef .tc main_v3) := by not_written hostOps1_1
    _ = Gen.W6 m ρ c (Proc.devRef .tc main_v3) := by not_written hostOps1
    _ = (Gen.dat0 (Gen.V5 m ρ) c).arrAt (1 : Fin cfg0.W) cfg0.N := Gen.W6_arr m ρ c (1 : Fin cfg0.W)
    _ = Gen.W5 m ρ c (Proc.devRef .tc main_v3) := (Gen.dat0 (Gen.V5 m ρ) c).arrAt_in (1 : Fin cfg0.W) rfl cfg0.N

/-- The padded samples are written by the first pad and by nothing after it before region 0. -/
theorem w5_v0 (c : Dev nD) : Gen.W5 m ρ c (Proc.devRef .tc main_v0) = Gen.W2 m ρ c (Proc.devRef .tc main_v0) :=
  calc Gen.W5 m ρ c (Proc.devRef .tc main_v0)
    _ = Gen.W4 m ρ c (Proc.devRef .tc main_v0) := by not_written hostOps0_4
    _ = Gen.W3 m ρ c (Proc.devRef .tc main_v0) := by not_written hostOps0_3
    _ = Gen.W2 m ρ c (Proc.devRef .tc main_v0) := by not_written hostOps0_2

/-- The first pad, read back to the launch memory. -/
theorem w2_v0 (c : Dev nD) :
    @Eq (FVec Ideal S1004800x64 .f32) (Gen.W2 m ρ c (Proc.devRef .tc main_v0))
      (pad S1004800x64 ![0, 0] ![4800, 0] ![0, 0] (m ((c : Thread nD τ).loc main_arg0))
        (sitofp (F := Ideal) .f32 (constantI S_ 32 0#32)) pads_S1000000x64_S1004800x64_048000_000 h_S_) := by
  dsimp only [Gen.W2, Gen.W1, Gen.W0, Gen.hostOps0_1, Gen.hostOps0]
  after_results
  rfl

/-- The context numbers are as launched until the first reshape reads them. -/
theorem w2_arg1 (c : Dev nD) : Gen.W2 m ρ c (Proc.devRef .tc main_arg1) = m ((c : Thread nD τ).loc main_arg1) :=
  calc Gen.W2 m ρ c (Proc.devRef .tc main_arg1)
    _ = Gen.W1 m ρ c (Proc.devRef .tc main_arg1) := by not_written hostOps0_1
    _ = Gen.W0 m ρ c (Proc.devRef .tc main_arg1) := by not_written hostOps0
    _ = m ((c : Thread nD τ).loc main_arg1) := rfl

/-- The context row region 0 stages, read back to the launch memory. -/
theorem w5_v3 (c : Dev nD) :
    @Eq (IVec S1x1004800 32) (Gen.W5 m ρ c (Proc.devRef .tc main_v3))
      (shapeCast S1x1004800
        (pad S1004800 ![0] ![4800] ![0] (shapeCast S1000000 (m ((c : Thread nD τ).loc main_arg1) : IVec S1000000x1 32) shapeCasts_S1000000x1_S1000000)
          (constantI S_ 32 4294967295#32) pads_S1000000_S1004800_048000 h_S_)
        shapeCasts_S1004800_S1x1004800) := by
  have e5 : @Eq (IVec S1x1004800 32) (Gen.W5 m ρ c (Proc.devRef .tc main_v3))
      (shapeCast S1x1004800 (Gen.W4 m ρ c (Proc.devRef .tc main_v2) : IVec S1004800 32) shapeCasts_S1004800_S1x1004800) :=
    after0_4_v3 (Gen.W4 m ρ c)
  have e4 : @Eq (IVec S1004800 32) (Gen.W4 m ρ c (Proc.devRef .tc main_v2))
      (pad S1004800 ![0] ![4800] ![0] (Gen.W3 m ρ c (Proc.devRef .tc main_v1) : IVec S1000000 32)
        (Gen.W3 m ρ c (Proc.devRef .tc main_c_0) : IVec S_ 32) pads_S1000000_S1004800_048000 h_S_) :=
    after0_3_v2 (Gen.W3 m ρ c)
  have e3 : @Eq (IVec S1000000 32) (Gen.W3 m ρ c (Proc.devRef .tc main_v1))
      (shapeCast S1000000 (Gen.W2 m ρ c (Proc.devRef .tc main_arg1) : IVec S1000000x1 32) shapeCasts_S1000000x1_S1000000) :=
    after0_2_v1 (Gen.W2 m ρ c)
  have e3' : @Eq (IVec S_ 32) (Gen.W3 m ρ c (Proc.devRef .tc main_c_0)) (constantI S_ 32 4294967295#32) :=
    after0_2_c0 (Gen.W2 m ρ c)
  rw [e5, e4, e3, e3', w2_arg1 m ρ c]

/-- The guard's condition at region 1's entry and just after the first stretch. -/
theorem w7_v27 (c : Dev nD) :
    @Eq (IVec S16x1 1) (Gen.W7 m ρ c (Proc.devRef .tc main_v27))
      (cmpf .ogt (Gen.V6 m ρ c main_v4_0 : FVec Ideal S16x1 .f32)
        (broadcastInDim S16x1 ![] bcast_S_S16x1 (constant (F := Ideal) S_ .f32 0x00000000#32))) :=
  after1_v27 (Gen.W6 m ρ c)

theorem w9_v27 (c : Dev nD) : Gen.W9 m ρ c (Proc.devRef .tc main_v27) = Gen.W7 m ρ c (Proc.devRef .tc main_v27) :=
  calc Gen.W9 m ρ c (Proc.devRef .tc main_v27)
    _ = Gen.W8 m ρ c (Proc.devRef .tc main_v27) := by not_written hostOps1_2
    _ = Gen.W7 m ρ c (Proc.devRef .tc main_v27) := by not_written hostOps1_1

theorem w9_v25 (c : Dev nD) : Gen.W9 m ρ c (Proc.devRef .tc main_v25) = Gen.W7 m ρ c (Proc.devRef .tc main_v25) :=
  calc Gen.W9 m ρ c (Proc.devRef .tc main_v25)
    _ = Gen.W8 m ρ c (Proc.devRef .tc main_v25) := by not_written hostOps1_2
    _ = Gen.W7 m ρ c (Proc.devRef .tc main_v25) := by not_written hostOps1_1

theorem w10_v28 (c : Dev nD) : Gen.W10 m ρ c (Proc.devRef .tc main_v28) = Gen.W8 m ρ c (Proc.devRef .tc main_v28) :=
  calc Gen.W10 m ρ c (Proc.devRef .tc main_v28)
    _ = Gen.W9 m ρ c (Proc.devRef .tc main_v28) := by not_written hostOps1_3
    _ = Gen.W8 m ρ c (Proc.devRef .tc main_v28) := by not_written hostOps1_2

/-! ## The seven facts -/

/-- Region 0 finds the samples padded with zero rows … -/
theorem v0_entry (c : Dev nD) :
    @Eq (FVec Ideal S1004800x64 .f32) (Gen.V5 m ρ c main_v0) (Cert.Spec.padX (F := Ideal) (m ((c : Thread nD τ).loc main_arg0))) :=
  ((w5_v0 m ρ c).trans (w2_v0 m ρ c)).trans (pad_rows_eq _)

/-- … and the context numbers as one row padded with −1. -/
theorem v3_entry (c : Dev nD) :
    @Eq (IVec S1x1004800 32) (Gen.V5 m ρ c main_v3) (Cert.Spec.padC (m ((c : Thread nD τ).loc main_arg1))) :=
  (w5_v3 m ρ c).trans (pad_ctx_eq _)

/-- Region 1 finds the same two arrays (nothing between the regions writes them). -/
theorem v0_mid (c : Dev nD) : Gen.V10 m ρ c main_v0 = Gen.V5 m ρ c main_v0 := w10_v0 m ρ c
theorem v3_mid (c : Dev nD) : Gen.V10 m ρ c main_v3 = Gen.V5 m ρ c main_v3 := w10_v3 m ρ c

/-- The scale region 1 finds: the shared chain on region 0's three results, guarded to 1 at empty contexts. -/
theorem v28_mid (c : Dev nD) :
    @Eq (FVec Ideal S16x64 .f32) (Gen.V10 m ρ c main_v28)
      (Cert.Spec.guard (F := Ideal) 0x3F800000#32 (Gen.V6 m ρ c main_v4_0)
          (Cert.Spec.scaleOf (F := Ideal) (Gen.V6 m ρ c main_v4_0) (Gen.V6 m ρ c main_v4_1) (Gen.V6 m ρ c main_v4_2)
            (m ((c : Thread nD τ).loc main_arg2)) (m ((c : Thread nD τ).loc main_arg4)))) := by
  have e8 : @Eq (FVec Ideal S16x64 .f32) (Gen.W8 m ρ c (Proc.devRef .tc main_v28))
      (select (broadcastInDim S16x64 ![0, 1] bcast_S16x1_S16x64_0_1 (Gen.W7 m ρ c (Proc.devRef .tc main_v27) : IVec S16x1 1))
        (Gen.W7 m ρ c (Proc.devRef .tc main_v20) : FVec Ideal S16x64 .f32)
        (broadcastInDim S16x64 ![] bcast_S_S16x64 (Gen.W7 m ρ c (Proc.devRef .tc main_cst_3) : FVec Ideal S_ .f32))) :=
    after1_1_v28 (Gen.W7 m ρ c)
  have e20 : @Eq (FVec Ideal S16x64 .f32) (Gen.W7 m ρ c (Proc.devRef .tc main_v20))
      (Cert.Spec.scaleOf (F := Ideal) (Gen.V6 m ρ c main_v4_0) (Gen.V6 m ρ c main_v4_1) (Gen.V6 m ρ c main_v4_2)
        (Gen.W6 m ρ c (Proc.devRef .tc main_arg2)) (Gen.W6 m ρ c (Proc.devRef .tc main_arg4))) :=
    after1_v20 (Gen.W6 m ρ c)
  have ec : @Eq (FVec Ideal S_ .f32) (Gen.W7 m ρ c (Proc.devRef .tc main_cst_3)) (constant (F := Ideal) S_ .f32 0x3F800000#32) :=
    after1_cst3 (Gen.W6 m ρ c)
  rw [w6_arg2 m ρ c, w6_arg4 m ρ c] at e20
  refine (w10_v28 m ρ c).trans ?_
  rw [e8, e20, ec, w7_v27 m ρ c]
  rfl

/-- The shift region 1 finds: the shared chain, guarded to 0 at empty contexts. -/
theorem v29_mid (c : Dev nD) :
    @Eq (FVec Ideal S16x64 .f32) (Gen.V10 m ρ c main_v29)
      (Cert.Spec.guard (F := Ideal) 0x00000000#32 (Gen.V6 m ρ c main_v4_0)
          (Cert.Spec.shiftOf (F := Ideal) (Gen.V6 m ρ c main_v4_0) (Gen.V6 m ρ c main_v4_1) (Gen.V6 m ρ c main_v4_2)
            (m ((c : Thread nD τ).loc main_arg2)) (m ((c : Thread nD τ).loc main_arg3)) (m ((c : Thread nD τ).loc main_arg4)))) := by
  have e10 : @Eq (FVec Ideal S16x64 .f32) (Gen.W10 m ρ c (Proc.devRef .tc main_v29))
      (select (broadcastInDim S16x64 ![0, 1] bcast_S16x1_S16x64_0_1 (Gen.W9 m ρ c (Proc.devRef .tc main_v27) : IVec S16x1 1))
        (Gen.W9 m ρ c (Proc.devRef .tc main_v25) : FVec Ideal S16x64 .f32)
        (broadcastInDim S16x64 ![] bcast_S_S16x64 (Gen.W9 m ρ c (Proc.devRef .tc main_cst_4) : FVec Ideal S_ .f32))) :=
    after1_3_v29 (Gen.W9 m ρ c)
  have e25 : @Eq (FVec Ideal S16x64 .f32) (Gen.W7 m ρ c (Proc.devRef .tc main_v25))
      (Cert.Spec.shiftOf (F := Ideal) (Gen.V6 m ρ c main_v4_0) (Gen.V6 m ρ c main_v4_1) (Gen.V6 m ρ c main_v4_2)
        (Gen.W6 m ρ c (Proc.devRef .tc main_arg2)) (Gen.W6 m ρ c (Proc.devRef .tc main_arg3)) (Gen.W6 m ρ c (Proc.devRef .tc main_arg4))) :=
    after1_v25 (Gen.W6 m ρ c)
  have ec : @Eq (FVec Ideal S_ .f32) (Gen.W9 m ρ c (Proc.devRef .tc main_cst_4)) (constant (F := Ideal) S_ .f32 0x00000000#32) :=
    after1_2_cst4 (Gen.W8 m ρ c)
  rw [w6_arg2 m ρ c, w6_arg3 m ρ c, w6_arg4 m ρ c] at e25
  refine e10.trans ?_
  rw [w9_v27 m ρ c, w9_v25 m ρ c, e25, ec, w7_v27 m ρ c]
  rfl

/-- The result buffer: the first 1000000 rows of region 1's output array. -/
theorem v31_tail (c : Dev nD) :
    @Eq (FVec Ideal S1000000x64 .f32) (Gen.W12 m ρ c (Proc.devRef .tc main_v31)) (Cert.Spec.sliceX (F := Ideal) (Gen.V11 m ρ c main_v30)) := by
  rw [← slice_rows_eq]
  dsimp only [Gen.W12, Gen.hostOps2]
  after_results

end Cert.KernelIdeal.KHost
end
-- ==== Proof.KPay.lean ====
/-
  The kernels' arithmetic at one entry, over the extended reals. The comparison of the context row against the column
  0 … 15 is the indicator of "the row's word names this context"; a lane sum and a product with the indicator matrix
  are finite sums against the indicator.
-/
import proofs.«412077_j73332271612492_1_alg».proof.Proof.Spec
import proofs.«412077_j73332271612492_1_alg».proof.Proof.Gen.KernelIdeal.Skeleton
import Idealize.ShloMosaic.PureOps.Ideal.Laws
import Idealize.ShloMosaic.Lib.Pipeline.Value
import Idealize.ShloMosaic.Lib.ValueLayout

noncomputable section

open scoped BigOperators

namespace Cert.KernelIdeal.KPay

open Idealize.ShloMosaic Idealize.ShloMosaic.ValueIdx Cert.KernelIdeal Cert.KernelIdeal.Gen

/-! ## Words: the comparison with a small number -/

/-- A number below sixteen, written as a 32-bit word, reads back signed as itself. -/
theorem toInt_ofNat_small (k : Fin 16) : (BitVec.ofNat 32 k.val).toInt = (k.val : Int) := by
  have hk := k.isLt
  rw [BitVec.toInt_eq_toNat_cond, BitVec.toNat_ofNat, Nat.mod_eq_of_lt (by omega)]
  rw [if_pos (by omega)]

/-- A word is the word of a number below sixteen exactly when its signed reading is that number. -/
theorem ofNat_eq_iff (w : BitVec 32) (k : Fin 16) : BitVec.ofNat 32 k.val = w ↔ w.toInt = (k.val : Int) := by
  constructor
  · rintro rfl; exact toInt_ofNat_small k
  · intro h; exact BitVec.eq_of_toInt_eq (by rw [toInt_ofNat_small, h])

/-- The comparison bit, widened and converted, is the indicator. -/
theorem indicator_word (w : BitVec 32) (k : Fin 16) :
    FloatOps.sitofp (F := Ideal) .f32 ((IntOp.cmpi .eq (BitVec.ofNat 32 k.val) w).setWidth 32) = Cert.Spec.hot w k := by
  unfold Cert.Spec.hot
  by_cases h : w.toInt = (k.val : Int)
  · have e : BitVec.ofNat 32 k.val = w := (ofNat_eq_iff w k).mpr h
    rw [if_pos h, ← e]
    show ((((BitVec.ofBool (BitVec.ofNat 32 k.val == BitVec.ofNat 32 k.val)).setWidth 32).toInt : ℝ) : EReal) = 1
    simp
  · have e : ¬ BitVec.ofNat 32 k.val = w := fun e => h ((ofNat_eq_iff w k).mp e)
    rw [if_neg h]
    show ((((BitVec.ofBool (BitVec.ofNat 32 k.val == w)).setWidth 32).toInt : ℝ) : EReal) = 0
    have hb : (BitVec.ofNat 32 k.val == w) = false := by simpa using e
    rw [hb]; simp

/-! ## The layout operations of the indicator, at an entry -/

/-- The column 0 … 15 spread over the lanes reads the row's number. -/
theorem iota_col_apply (k : Fin 16) (q : Fin 6400) :
    broadcastTo S16x6400 (iota .tc S16x1 32 [0] iota_S16x1_d0_w32) broadcasts_S16x1_S16x6400 (ix2 k q)
      = BitVec.ofNat 32 k.val := by
  refine (broadcastTo_apply _ broadcasts_S16x1_S16x6400 (ix2 k q) (ix2 k (0 : Fin 1)) fun ax => ?_).trans ?_
  · match ax with
    | ⟨0, _⟩ => rfl
    | ⟨1, _⟩ => rfl
  · exact iota_single_apply .tc S16x1 32 0 iota_S16x1_d0_w32 (ix2 k (0 : Fin 1))

/-- The context row spread over the sixteen rows reads the lane's word. -/
theorem ctx_row_apply (v : Vec Ideal S1x6400 .i32) (k : Fin 16) (q : Fin 6400) :
    broadcastTo S16x6400 (shapeCast S1x6400 v shapeCasts_S1x6400_S1x6400) broadcasts_S1x6400_S16x6400 (ix2 k q)
      = v (ix2 (0 : Fin 1) q) := by
  rw [shapeCast_self]
  exact broadcastTo_1b_ab_apply v broadcasts_S1x6400_S16x6400 k q

/-! ## The payloads -/

/-- The first point's reset values are zero. -/
theorem pay1_apply (i : S16x1.Idx) : k0_pay1 (F := Ideal) i = 0 := by
  unfold k0_pay1
  exact Ideal.ofBits_zero_f32
theorem pay2_apply (i : S16x64.Idx) : k0_pay2 (F := Ideal) i = 0 := by
  unfold k0_pay2
  exact Ideal.ofBits_zero_f32
theorem pay3_apply (i : S16x64.Idx) : k0_pay3 (F := Ideal) i = 0 := by
  unfold k0_pay3
  exact Ideal.ofBits_zero_f32

/-- The indicator matrix: entry (k, q) says whether row q of the block carries context k. -/
theorem pay5_apply (v5 : Vec Ideal S1x6400 .i32) (k : Fin 16) (q : Fin 6400) :
    k0_pay5 (F := Ideal) v5 (ix2 k q) = Cert.Spec.hot (v5 (ix2 (0 : Fin 1) q)) k := by
  unfold k0_pay5
  show FloatOps.sitofp (F := Ideal) .f32 ((IntOp.cmpi .eq
      (broadcastTo S16x6400 (iota .tc S16x1 32 [0] iota_S16x1_d0_w32) broadcasts_S16x1_S16x6400 (ix2 k q))
      (broadcastTo S16x6400 (shapeCast S1x6400 v5 shapeCasts_S1x6400_S1x6400) broadcasts_S1x6400_S16x6400 (ix2 k q))).setWidth 32) = _
  rw [iota_col_apply, ctx_row_apply]
  exact indicator_word _ k

/-! ## The lane sum and its column form -/

/-- A vector cast to one column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the lanes of a sixteen-row block, at row k. -/
theorem lane_sum_apply (src : FVec Ideal S16x6400 .f32) (k : Fin 16) :
    multiReduction .add [1] S16 src 0x00000000#32 reduces_S16x6400_S16 (.inl rfl) rfl (ix1 k)
      = ∑ q : Fin 6400, src (ix2 k q) := by
  refine (Ideal.multiReduction_add_single src 0x00000000#32 reduces_S16x6400_S16 (.inl rfl) rfl (ix1 k)).trans ?_
  refine Finset.sum_congr rfl fun q _ => congrArg src (funext fun a => Fin.ext ?_)
  match a with
  | ⟨0, _⟩ => rfl
  | ⟨1, _⟩ => rfl

/-! ## The first pass's product: rows of the indicator against columns of the block -/

theorem lhs_stats_0 (i : S16x64.Idx) (c : dot_S16x6400_S6400x64_S16x64_1_0_0_1_n_n.contr.Idx) :
    (dot_S16x6400_S6400x64_S16x64_1_0_0_1_n_n.lhsIdx i c 0).val = (i 0).val := by
  unfold DotDims.lhsIdx
  rw [dif_neg (show ¬(0 : Fin S16x6400.rank) ∈ dot_S16x6400_S6400x64_S16x64_1_0_0_1_n_n.lhsBatch by decide),
    dif_pos (show (0 : Fin S16x6400.rank) ∈ dot_S16x6400_S6400x64_S16x64_1_0_0_1_n_n.lhsNonContracting by decide)]
  rfl
theorem lhs_stats_1 (i : S16x64.Idx) (c : dot_S16x6400_S6400x64_S16x64_1_0_0_1_n_n.contr.Idx) :
    (dot_S16x6400_S6400x64_S16x64_1_0_0_1_n_n.lhsIdx i c 1).val = (c ⟨0, by decide⟩).val :=
  dot_S16x6400_S6400x64_S16x64_1_0_0_1_n_n.lhsIdx_val_of_single rfl i c
theorem rhs_stats_0 (i : S16x64.Idx) (c : dot_S16x6400_S6400x64_S16x64_1_0_0_1_n_n.contr.Idx) :
    (dot_S16x6400_S6400x64_S16x64_1_0_0_1_n_n.rhsIdx i c 0).val = (c ⟨0, by decide⟩).val :=
  dot_S16x6400_S6400x64_S16x64_1_0_0_1_n_n.rhsIdx_val_of_single rfl i c
theorem rhs_stats_1 (i : S16x64.Idx) (c : dot_S16x6400_S6400x64_S16x64_1_0_0_1_n_n.contr.Idx) :
    (dot_S16x6400_S6400x64_S16x64_1_0_0_1_n_n.rhsIdx i c 1).val = (i 1).val := by
  unfold DotDims.rhsIdx
  rw [dif_neg (show ¬(1 : Fin S6400x64.rank) ∈ dot_S16x6400_S6400x64_S16x64_1_0_0_1_n_n.rhsBatch by decide),
    dif_pos (show (1 : Fin S6400x64.rank) ∈ dot_S16x6400_S6400x64_S16x64_1_0_0_1_n_n.rhsNonContracting by decide)]
  rfl

/-- The first pass's product into the zero block, at (k, d): the sum over the block's rows q of A[k, q] · B[q, d]. -/
theorem stats_matmul_apply (A : FVec Ideal S16x6400 .f32) (B : FVec Ideal S6400x64 .f32) (k : Fin 16) (d : Fin 64) :
    matmul dot_S16x6400_S6400x64_S16x64_1_0_0_1_n_n (some .fp32) A B (constant (F := Ideal) S16x64 .f32 0x00000000#32) (ix2 k d)
      = ∑ q : Fin 6400, A (ix2 k q) * B (ix2 q d) := by
  simp only [matmul]
  rw [Ideal.matmul_constant_zero_apply,
    ← Equiv.sum_comp (contrEquiv1 dot_S16x6400_S6400x64_S16x64_1_0_0_1_n_n 6400 rfl rfl).symm]
  refine Finset.sum_congr rfl fun q _ => ?_
  have hq := contrEquiv1_symm_val dot_S16x6400_S6400x64_S16x64_1_0_0_1_n_n 6400 rfl rfl q
  have el : dot_S16x6400_S6400x64_S16x64_1_0_0_1_n_n.lhsIdx (ix2 k d)
      ((contrEquiv1 dot_S16x6400_S6400x64_S16x64_1_0_0_1_n_n 6400 rfl rfl).symm q) = ix2 k q := funext fun a => Fin.ext (by
    match a with
    | ⟨0, _⟩ => exact lhs_stats_0 _ _
    | ⟨1, _⟩ => exact (lhs_stats_1 _ _).trans hq)
  have er : dot_S16x6400_S6400x64_S16x64_1_0_0_1_n_n.rhsIdx (ix2 k d)
      ((contrEquiv1 dot_S16x6400_S6400x64_S16x64_1_0_0_1_n_n 6400 rfl rfl).symm q) = ix2 q d := funext fun a => Fin.ext (by
    match a with
    | ⟨0, _⟩ => exact (rhs_stats_0 _ _).trans hq
    | ⟨1, _⟩ => exact rhs_stats_1 _ _)
  rw [el, er]

/-! ## The second pass's product: columns of the indicator against columns of a sixteen-row table -/

theorem lhs_apply_0 (i : S6400x64.Idx) (c : dot_S16x6400_S16x64_S6400x64_0_0_1_1_n_n.contr.Idx) :
    (dot_S16x6400_S16x64_S6400x64_0_0_1_1_n_n.lhsIdx i c 0).val = (c ⟨0, by decide⟩).val :=
  dot_S16x6400_S16x64_S6400x64_0_0_1_1_n_n.lhsIdx_val_of_single rfl i c
theorem lhs_apply_1 (i : S6400x64.Idx) (c : dot_S16x6400_S16x64_S6400x64_0_0_1_1_n_n.contr.Idx) :
    (dot_S16x6400_S16x64_S6400x64_0_0_1_1_n_n.lhsIdx i c 1).val = (i 0).val := by
  unfold DotDims.lhsIdx
  rw [dif_neg (show ¬(1 : Fin S16x6400.rank) ∈ dot_S16x6400_S16x64_S6400x64_0_0_1_1_n_n.lhsBatch by decide),
    dif_pos (show (1 : Fin S16x6400.rank) ∈ dot_S16x6400_S16x64_S6400x64_0_0_1_1_n_n.lhsNonContracting by decide)]
  rfl
theorem rhs_apply_0 (i : S6400x64.Idx) (c : dot_S16x6400_S16x64_S6400x64_0_0_1_1_n_n.contr.Idx) :
    (dot_S16x6400_S16x64_S6400x64_0_0_1_1_n_n.rhsIdx i c 0).val = (c ⟨0, by decide⟩).val :=
  dot_S16x6400_S16x64_S6400x64_0_0_1_1_n_n.rhsIdx_val_of_single rfl i c
theorem rhs_apply_1 (i : S6400x64.Idx) (c : dot_S16x6400_S16x64_S6400x64_0_0_1_1_n_n.contr.Idx) :
    (dot_S16x6400_S16x64_S6400x64_0_0_1_1_n_n.rhsIdx i c 1).val = (i 1).val := by
  unfold DotDims.rhsIdx
  rw [dif_neg (show ¬(1 : Fin S16x64.rank) ∈ dot_S16x6400_S16x64_S6400x64_0_0_1_1_n_n.rhsBatch by decide),
    dif_pos (show (1 : Fin S16x64.rank) ∈ dot_S16x6400_S16x64_S6400x64_0_0_1_1_n_n.rhsNonContracting by decide)]
  rfl

/-- The second pass's product into the zero block, at (q, d): the sum over the sixteen contexts k of A[k, q] · T[k, d]. -/
theorem apply_matmul_apply (A : FVec Ideal S16x6400 .f32) (T : FVec Ideal S16x64 .f32) (q : Fin 6400) (d : Fin 64) :
    matmul dot_S16x6400_S16x64_S6400x64_0_0_1_1_n_n (some .fp32) A T (constant (F := Ideal) S6400x64 .f32 0x00000000#32) (ix2 q d)
      = ∑ k : Fin 16, A (ix2 k q) * T (ix2 k d) := by
  simp only [matmul]
  rw [Ideal.matmul_constant_zero_apply,
    ← Equiv.sum_comp (contrEquiv1 dot_S16x6400_S16x64_S6400x64_0_0_1_1_n_n 16 rfl rfl).symm]
  refine Finset.sum_congr rfl fun k _ => ?_
  have hk := contrEquiv1_symm_val dot_S16x6400_S16x64_S6400x64_0_0_1_1_n_n 16 rfl rfl k
  have el : dot_S16x6400_S16x64_S6400x64_0_0_1_1_n_n.lhsIdx (ix2 q d)
      ((contrEquiv1 dot_S16x6400_S16x64_S6400x64_0_0_1_1_n_n 16 rfl rfl).symm k) = ix2 k q := funext fun a => Fin.ext (by
    match a with
    | ⟨0, _⟩ => exact (lhs_apply_0 _ _).trans hk
    | ⟨1, _⟩ => exact lhs_apply_1 _ _)
  have er : dot_S16x6400_S16x64_S6400x64_0_0_1_1_n_n.rhsIdx (ix2 q d)
      ((contrEquiv1 dot_S16x6400_S16x64_S6400x64_0_0_1_1_n_n 16 rfl rfl).symm k) = ix2 k d := funext fun a => Fin.ext (by
    match a with
    | ⟨0, _⟩ => exact (rhs_apply_0 _ _).trans hk
    | ⟨1, _⟩ => exact rhs_apply_1 _ _)
  rw [el, er]

/-- The block's samples pass through their cast unchanged. -/
theorem pay4_eq (v3 : Vec Ideal S6400x64 .f32) : k0_pay4 (F := Ideal) v3 = v3 := by
  unfold k0_pay4
  exact shapeCast_self v3 _

/-- The count of context k after a point: what the block held plus the number of the block's rows of context k. -/
theorem pay6_apply (v5 : Vec Ideal S1x6400 .i32) (v13 : Vec Ideal S16x1 .f32) (k : Fin 16) :
    k0_pay6 (F := Ideal) v5 v13 (ix2 k (0 : Fin 1))
      = (v13 (ix2 k (0 : Fin 1)) : EReal) + ∑ q : Fin 6400, Cert.Spec.hot (v5 (ix2 (0 : Fin 1) q)) k := by
  unfold k0_pay6
  show (shapeCast S16x1 v13 shapeCasts_S16x1_S16x1 (ix2 k (0 : Fin 1)) : EReal)
      + shapeCast S16x1 (multiReduction .add [1] S16 (k0_pay5 (F := Ideal) v5) 0x00000000#32 reduces_S16x6400_S16 (.inl rfl) rfl)
          shapeCasts_S16_S16x1 (ix2 k (0 : Fin 1)) = _
  rw [shapeCast_self, shapeCast_a_a1_apply, lane_sum_apply]
  exact congrArg (_ + ·) (Finset.sum_congr rfl fun q _ => pay5_apply v5 k q)

/-- The column sums after a point. -/
theorem pay7_apply (v3 : Vec Ideal S6400x64 .f32) (v5 : Vec Ideal S1x6400 .i32) (v19 : Vec Ideal S16x64 .f32)
    (k : Fin 16) (d : Fin 64) :
    k0_pay7 (F := Ideal) v3 v5 v19 (ix2 k d)
      = (v19 (ix2 k d) : EReal) + ∑ q : Fin 6400, Cert.Spec.hot (v5 (ix2 (0 : Fin 1) q)) k * (v3 (ix2 q d) : EReal) := by
  unfold k0_pay7
  show (shapeCast S16x64 v19 shapeCasts_S16x64_S16x64 (ix2 k d) : EReal)
      + matmul dot_S16x6400_S6400x64_S16x64_1_0_0_1_n_n (some .fp32) (k0_pay5 (F := Ideal) v5) (k0_pay4 (F := Ideal) v3)
          (constant (F := Ideal) S16x64 .f32 0x00000000#32) (ix2 k d) = _
  rw [shapeCast_self, stats_matmul_apply, pay4_eq]
  exact congrArg (_ + ·) (Finset.sum_congr rfl fun q _ => by rw [pay5_apply])

/-- The column sums of squares after a point. -/
theorem pay8_apply (v3 : Vec Ideal S6400x64 .f32) (v5 : Vec Ideal S1x6400 .i32) (v24 : Vec Ideal S16x64 .f32)
    (k : Fin 16) (d : Fin 64) :
    k0_pay8 (F := Ideal) v3 v5 v24 (ix2 k d)
      = (v24 (ix2 k d) : EReal)
        + ∑ q : Fin 6400, Cert.Spec.hot (v5 (ix2 (0 : Fin 1) q)) k * ((v3 (ix2 q d) : EReal) * (v3 (ix2 q d) : EReal)) := by
  unfold k0_pay8
  show (shapeCast S16x64 v24 shapeCasts_S16x64_S16x64 (ix2 k d) : EReal)
      + matmul dot_S16x6400_S6400x64_S16x64_1_0_0_1_n_n (some .fp32) (k0_pay5 (F := Ideal) v5)
          (mulf (k0_pay4 (F := Ideal) v3) (k0_pay4 (F := Ideal) v3))
          (constant (F := Ideal) S16x64 .f32 0x00000000#32) (ix2 k d) = _
  rw [shapeCast_self, stats_matmul_apply, pay4_eq]
  exact congrArg (_ + ·) (Finset.sum_congr rfl fun q _ => by rw [pay5_apply, mulf_apply])

/-- The second pass at row q, column d of a block. -/
theorem k1_pay1_apply (v0 : Vec Ideal S6400x64 .f32) (v2 : Vec Ideal S1x6400 .i32) (v10 v13 : Vec Ideal S16x64 .f32)
    (q : Fin 6400) (d : Fin 64) :
    k1_pay1 (F := Ideal) v0 v2 v10 v13 (ix2 q d)
      = (v0 (ix2 q d) : EReal) * (∑ k : Fin 16, Cert.Spec.hot (v2 (ix2 (0 : Fin 1) q)) k * (v10 (ix2 k d) : EReal))
        + ∑ k : Fin 16, Cert.Spec.hot (v2 (ix2 (0 : Fin 1) q)) k * (v13 (ix2 k d) : EReal) := by
  unfold k1_pay1
  show (shapeCast S6400x64 v0 shapeCasts_S6400x64_S6400x64 (ix2 q d) : EReal)
        * matmul dot_S16x6400_S16x64_S6400x64_0_0_1_1_n_n (some .fp32) (k0_pay5 (F := Ideal) v2)
            (shapeCast S16x64 v10 shapeCasts_S16x64_S16x64) (constant (F := Ideal) S6400x64 .f32 0x00000000#32) (ix2 q d)
      + matmul dot_S16x6400_S16x64_S6400x64_0_0_1_1_n_n (some .fp32) (k0_pay5 (F := Ideal) v2)
            (shapeCast S16x64 v13 shapeCasts_S16x64_S16x64) (constant (F := Ideal) S6400x64 .f32 0x00000000#32) (ix2 q d) = _
  rw [shapeCast_self, shapeCast_self, shapeCast_self, apply_matmul_apply, apply_matmul_apply]
  simp only [pay5_apply]

end Cert.KernelIdeal.KPay

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.KStats.lean ====
/-
  The first pass: after its 157 grid points the three resident output blocks hold the counts, the column sums and the
  column sums of squares over ALL padded rows — each point adds its 6400 rows' contribution to what the point before left,
  the first point starting from zero.
-/
import proofs.«412077_j73332271612492_1_alg».proof.Proof.Spec
import proofs.«412077_j73332271612492_1_alg».proof.Proof.Gen.KernelIdeal.Frame
import proofs.«412077_j73332271612492_1_alg».proof.Proof.KPay
import proofs.«412077_j73332271612492_1_alg».proof.Proof.LibSumSplit
import Idealize.ShloMosaic.Lib.Pipeline.Value
import Idealize.ShloMosaic.Lib.ValueIdx
import Idealize.ShloMosaic.Lib.Tactic
import Mathlib.Algebra.BigOperators.Group.Finset.Basic
import Mathlib.Algebra.BigOperators.Fin

noncomputable section

open scoped BigOperators

namespace Cert.KernelIdeal.KStats

open Idealize.ShloMosaic Idealize.ShloMosaic.TcCoe Idealize.SL.Sem Cert.KernelIdeal Cert.KernelIdeal.Gen
open Idealize.ShloMosaic.ValueIdx

/-! ## What one point leaves in each resident block

At every point each of the three blocks is covered by one last store of the whole block: the update's payload. At the
first point an earlier store of the whole block, the reset, lies under it, and the update's load of the block reads
that reset value back; at a later point the load reads what the block held when the point began. -/

section pieces

variable {F : FTy → Type} [FloatOps F]

/-- The offsets of a whole-block access are zero on both axes. -/
theorem hz : (![0, 0] : Fin 2 → Nat) = fun _ => 0 := funext fun a => by fin_cases a <;> rfl

/-- A point after the first leaves in the count block the count update of what the block held. -/
theorem out_B_2 (c : Dev nD) (i : grid0.Coords) (a1 : Memref sig .tc .vmem S6400x64 .f32) (h1 : a1.IsWhole)
    (a2 : Memref sig .tc .vmem S1x6400 .i32) (h2 : a2.IsWhole) (a3 : Memref sig .tc .vmem S16x1 .f32) (h3 : a3.IsWhole)
    (a4 : Memref sig .tc .vmem S16x64 .f32) (h4 : a4.IsWhole) (a5 : Memref sig .tc .vmem S16x64 .f32) (h5 : a5.IsWhole)
    (hc : ¬cond0_0 i) (x0 : Vec F S6400x64 .f32) (x1 : Vec F S1x6400 .i32) (xo2 : Vec F S16x1 .f32)
    (xo3 : Vec F S16x64 .f32) (xo4 : Vec F S16x64 .f32) :
    out0_B_2 c i a1 h1 a2 h2 a3 h3 a4 h4 a5 h5 hc x0 x1 xo2 xo3 xo4 = k0_pay6 x1 xo2 := by
  unfold out0_B_2
  rw [View.read_writes_eq_canon _ _ _ (cover0_B_2 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S6400x64) hz, View.ld_unit_zero (S := S1x6400) hz, View.ld_unit_zero (S := S16x1) hz,
    View.ld_unit_zero (S := S16x64) hz]

/-- A point after the first leaves in the column-sum block the update of what the block held, -/
theorem out_B_3 (c : Dev nD) (i : grid0.Coords) (a1 : Memref sig .tc .vmem S6400x64 .f32) (h1 : a1.IsWhole)
    (a2 : Memref sig .tc .vmem S1x6400 .i32) (h2 : a2.IsWhole) (a3 : Memref sig .tc .vmem S16x1 .f32) (h3 : a3.IsWhole)
    (a4 : Memref sig .tc .vmem S16x64 .f32) (h4 : a4.IsWhole) (a5 : Memref sig .tc .vmem S16x64 .f32) (h5 : a5.IsWhole)
    (hc : ¬cond0_0 i) (x0 : Vec F S6400x64 .f32) (x1 : Vec F S1x6400 .i32) (xo2 : Vec F S16x1 .f32)
    (xo3 : Vec F S16x64 .f32) (xo4 : Vec F S16x64 .f32) :
    out0_B_3 c i a1 h1 a2 h2 a3 h3 a4 h4 a5 h5 hc x0 x1 xo2 xo3 xo4 = k0_pay7 x0 x1 xo3 := by
  unfold out0_B_3
  rw [View.read_writes_eq_canon _ _ _ (cover0_B_3 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S6400x64) hz, View.ld_unit_zero (S := S1x6400) hz, View.ld_unit_zero (S := S16x1) hz,
    View.ld_unit_zero (S := S16x64) hz]

/-- and in the block of sums of squares the update of what that block held. -/
theorem out_B_4 (c : Dev nD) (i : grid0.Coords) (a1 : Memref sig .tc .vmem S6400x64 .f32) (h1 : a1.IsWhole)
    (a2 : Memref sig .tc .vmem S1x6400 .i32) (h2 : a2.IsWhole) (a3 : Memref sig .tc .vmem S16x1 .f32) (h3 : a3.IsWhole)
    (a4 : Memref sig .tc .vmem S16x64 .f32) (h4 : a4.IsWhole) (a5 : Memref sig .tc .vmem S16x64 .f32) (h5 : a5.IsWhole)
    (hc : ¬cond0_0 i) (x0 : Vec F S6400x64 .f32) (x1 : Vec F S1x6400 .i32) (xo2 : Vec F S16x1 .f32)
    (xo3 : Vec F S16x64 .f32) (xo4 : Vec F S16x64 .f32) :
    out0_B_4 c i a1 h1 a2 h2 a3 h3 a4 h4 a5 h5 hc x0 x1 xo2 xo3 xo4 = k0_pay8 x0 x1 xo4 := by
  unfold out0_B_4
  rw [View.read_writes_eq_canon _ _ _ (cover0_B_4 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S6400x64) hz, View.ld_unit_zero (S := S1x6400) hz, View.ld_unit_zero (S := S16x1) hz,
    View.ld_unit_zero (S := S16x64) hz]

/-- The first point leaves in the count block the count update of the reset value, -/
theorem out_A_2 (c : Dev nD) (i : grid0.Coords) (a1 : Memref sig .tc .vmem S6400x64 .f32) (h1 : a1.IsWhole)
    (a2 : Memref sig .tc .vmem S1x6400 .i32) (h2 : a2.IsWhole) (a3 : Memref sig .tc .vmem S16x1 .f32) (h3 : a3.IsWhole)
    (a4 : Memref sig .tc .vmem S16x64 .f32) (h4 : a4.IsWhole) (a5 : Memref sig .tc .vmem S16x64 .f32) (h5 : a5.IsWhole)
    (hc : cond0_0 i) (x0 : Vec F S6400x64 .f32) (x1 : Vec F S1x6400 .i32) :
    out0_A_2 c i a1 h1 a2 h2 a3 h3 a4 h4 a5 h5 hc x0 x1 = k0_pay6 x1 (k0_pay1 (F := F)) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S16x1) hz, View.readCov_unit_zero (S := S16x1) _ hz]
  simp only [View.readAt_eq_ld, h1.read_unread, h2.read_unread, h3.read_unread, h4.read_unread, h5.read_unread,
    View.ld_unit_zero (S := S6400x64) hz, View.ld_unit_zero (S := S1x6400) hz, View.ld_unit_zero (S := S16x1) hz,
    View.ld_unit_zero (S := S16x64) hz]

/-- in the column-sum block the update of its reset value, -/
theorem out_A_3 (c : Dev nD) (i : grid0.Coords) (a1 : Memref sig .tc .vmem S6400x64 .f32) (h1 : a1.IsWhole)
    (a2 : Memref sig .tc .vmem S1x6400 .i32) (h2 : a2.IsWhole) (a3 : Memref sig .tc .vmem S16x1 .f32) (h3 : a3.IsWhole)
    (a4 : Memref sig .tc .vmem S16x64 .f32) (h4 : a4.IsWhole) (a5 : Memref sig .tc .vmem S16x64 .f32) (h5 : a5.IsWhole)
    (hc : cond0_0 i) (x0 : Vec F S6400x64 .f32) (x1 : Vec F S1x6400 .i32) :
    out0_A_3 c i a1 h1 a2 h2 a3 h3 a4 h4 a5 h5 hc x0 x1 = k0_pay7 x0 x1 (k0_pay2 (F := F)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S16x64) hz, View.readCov_unit_zero (S := S16x64) _ hz]
  simp only [View.readAt_eq_ld, h1.read_unread, h2.read_unread, h3.read_unread, h4.read_unread, h5.read_unread,
    View.ld_unit_zero (S := S6400x64) hz, View.ld_unit_zero (S := S1x6400) hz, View.ld_unit_zero (S := S16x1) hz,
    View.ld_unit_zero (S := S16x64) hz]

/-- and in the block of sums of squares the update of its reset value. -/
theorem out_A_4 (c : Dev nD) (i : grid0.Coords) (a1 : Memref sig .tc .vmem S6400x64 .f32) (h1 : a1.IsWhole)
    (a2 : Memref sig .tc .vmem S1x6400 .i32) (h2 : a2.IsWhole) (a3 : Memref sig .tc .vmem S16x1 .f32) (h3 : a3.IsWhole)
    (a4 : Memref sig .tc .vmem S16x64 .f32) (h4 : a4.IsWhole) (a5 : Memref sig .tc .vmem S16x64 .f32) (h5 : a5.IsWhole)
    (hc : cond0_0 i) (x0 : Vec F S6400x64 .f32) (x1 : Vec F S1x6400 .i32) :
    out0_A_4 c i a1 h1 a2 h2 a3 h3 a4 h4 a5 h5 hc x0 x1 = k0_pay8 x0 x1 (k0_pay3 (F := F)) := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S16x64) hz, View.readCov_unit_zero (S := S16x64) _ hz]
  simp only [View.readAt_eq_ld, h1.read_unread, h2.read_unread, h3.read_unread, h4.read_unread, h5.read_unread,
    View.ld_unit_zero (S := S6400x64) hz, View.ld_unit_zero (S := S1x6400) hz, View.ld_unit_zero (S := S16x1) hz,
    View.ld_unit_zero (S := S16x64) hz]

end pieces

/-! ## The first pass as values

The three resident blocks after a point: the payload of that point's one covering store, applied to the point's two
input blocks and to what the block held before — the reset value at the first point, the point before's result later. -/

section values

variable (V : (c : Dev nD) → (b : Ref sig .tc) → Buf (Elt Ideal) ((c : Thread nD τ).loc b))

/-- The sample block and the context block of point `t`, and the two padded arrays, at their literal types. -/
abbrev xblk (c : Dev nD) (t : Fin cfg0.N) : Vec Ideal S6400x64 .f32 := iblk0 V c 0 t
abbrev cblk (c : Dev nD) (t : Fin cfg0.N) : Vec Ideal S1x6400 .i32 := iblk0 V c 1 t
abbrev xarr (c : Dev nD) : Vec Ideal S1004800x64 .f32 := V c main_v0
abbrev carr (c : Dev nD) : Vec Ideal S1x1004800 .i32 := V c main_v3

/-- After the first point: the update applied to the reset values. -/
theorem outs_zero (c : Dev nD) (h : 0 < cfg0.N) :
    outsAt0 V c 0 h = (k0_pay6 (cblk V c ⟨0, h⟩) (k0_pay1 (F := Ideal)),
      k0_pay7 (xblk V c ⟨0, h⟩) (cblk V c ⟨0, h⟩) (k0_pay2 (F := Ideal)),
      k0_pay8 (xblk V c ⟨0, h⟩) (cblk V c ⟨0, h⟩) (k0_pay3 (F := Ideal))) :=
  have hA : (⟨0, h⟩ : Fin cfg0.N).val % 157 = 0 := rfl
  (outsAt0_A V c ⟨0, h⟩ hA).trans (congrArg₂ Prod.mk
    (out_A_2 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr hA) (xblk V c ⟨0, h⟩) (cblk V c ⟨0, h⟩))
    (congrArg₂ Prod.mk
      (out_A_3 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr hA) (xblk V c ⟨0, h⟩) (cblk V c ⟨0, h⟩))
      (out_A_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr hA) (xblk V c ⟨0, h⟩) (cblk V c ⟨0, h⟩))))

/-- After a later point: the update applied to what the point before left. -/
theorem outs_succ (c : Dev nD) (n : ℕ) (h : n + 1 < cfg0.N) :
    outsAt0 V c (n + 1) h = (k0_pay6 (cblk V c ⟨n + 1, h⟩) (outsAt0 V c n (Nat.lt_of_succ_lt h)).1,
      k0_pay7 (xblk V c ⟨n + 1, h⟩) (cblk V c ⟨n + 1, h⟩) (outsAt0 V c n (Nat.lt_of_succ_lt h)).2.1,
      k0_pay8 (xblk V c ⟨n + 1, h⟩) (cblk V c ⟨n + 1, h⟩) (outsAt0 V c n (Nat.lt_of_succ_lt h)).2.2) :=
  have hN : cfg0.N = 157 := N_0
  have hB : ¬(⟨n + 1, h⟩ : Fin cfg0.N).val % 157 = 0 := by dsimp only; omega
  (outsAt0_B V c ⟨n + 1, h⟩ hB).trans (congrArg₂ Prod.mk
    (out_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hc => hB ((hcond0_0 ⟨n + 1, h⟩).mp hc))
      (xblk V c ⟨n + 1, h⟩) (cblk V c ⟨n + 1, h⟩) (outsAt0 V c n (Nat.lt_of_succ_lt h)).1
      (outsAt0 V c n (Nat.lt_of_succ_lt h)).2.1 (outsAt0 V c n (Nat.lt_of_succ_lt h)).2.2)
    (congrArg₂ Prod.mk
      (out_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hc => hB ((hcond0_0 ⟨n + 1, h⟩).mp hc))
        (xblk V c ⟨n + 1, h⟩) (cblk V c ⟨n + 1, h⟩) (outsAt0 V c n (Nat.lt_of_succ_lt h)).1
        (outsAt0 V c n (Nat.lt_of_succ_lt h)).2.1 (outsAt0 V c n (Nat.lt_of_succ_lt h)).2.2)
      (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hc => hB ((hcond0_0 ⟨n + 1, h⟩).mp hc))
        (xblk V c ⟨n + 1, h⟩) (cblk V c ⟨n + 1, h⟩) (outsAt0 V c n (Nat.lt_of_succ_lt h)).1
        (outsAt0 V c n (Nat.lt_of_succ_lt h)).2.1 (outsAt0 V c n (Nat.lt_of_succ_lt h)).2.2)))

end values

/-! ## Blocks of the padded arrays

Point `t` reads rows 6400·t … 6400·t + 6399: the sample block is block (t, 0) of the [1004800, 64] array, the context
block is block (0, t) of the [1, 1004800] row; a block's coordinate in its array is block index × block size + the
coordinate inside the block. -/

section blocks

variable (V : (c : Dev nD) → (b : Ref sig .tc) → Buf (Elt Ideal) ((c : Thread nD τ).loc b))

/-- The block indices of the two inputs at point `t`, decided over the grid. -/
theorem idx_in : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

/-- Entry `q` of point `t`'s context block is entry 6400·t + q of the context row. -/
theorem cblk_apply (c : Dev nD) (t : Fin cfg0.N) (q : Fin 6400) (n : Fin 1004800) (hn : n.val = 6400 * t.val + q.val) :
    cblk V c t (ix2 (0 : Fin 1) q) = carr V c (ix2 (0 : Fin 1) n) := by
  obtain ⟨-, -, e0, e1⟩ := idx_in t
  show V c main_v3 (((cfg0.win 1).blk t).view.emb (ix2 (0 : Fin 1) q)) = V c main_v3 (ix2 (0 : Fin 1) n)
  refine congrArg (V c main_v3) ?_
  funext a; apply Fin.ext
  match a with
  | ⟨0, _⟩ => show win0_1.index t (0 : Fin 2) * 1 + 1 * 0 = 0; omega
  | ⟨1, _⟩ => show win0_1.index t (1 : Fin 2) * 6400 + 1 * q.val = n.val; omega

/-- Row `q`, column `d` of point `t`'s sample block is row 6400·t + q, column `d` of the padded samples. -/
theorem xblk_apply (c : Dev nD) (t : Fin cfg0.N) (q : Fin 6400) (d : Fin 64) (n : Fin 1004800)
    (hn : n.val = 6400 * t.val + q.val) :
    xblk V c t (ix2 q d) = xarr V c (ix2 n d) := by
  obtain ⟨e0, e1, -, -⟩ := idx_in t
  show V c main_v0 (((cfg0.win 0).blk t).view.emb (ix2 q d)) = V c main_v0 (ix2 n d)
  refine congrArg (V c main_v0) ?_
  funext a; apply Fin.ext
  match a with
  | ⟨0, _⟩ => show win0_0.index t (0 : Fin 2) * 6400 + 1 * q.val = n.val; omega
  | ⟨1, _⟩ => show win0_0.index t (1 : Fin 2) * 64 + 1 * d.val = d.val; omega

end blocks

/-! ## The running sums

Run `t` is rows 6400·t … 6400·t + 6399 of the padded arrays. Each statistic after point `n` is the sum over the runs
0 … n of the run's own contribution; after the last run that is the flat sum over all 1004800 rows. -/

section sums

/-- Row `q` of run `t`, among the padded rows. -/
abbrev row (t : Fin 157) (q : Fin 6400) : Fin 1004800 :=
  ⟨6400 * t.val + q.val, Cert.SumSplit.lt_of_run (by decide) t q⟩

/-- What run `t` adds to the count of context `k`, -/
def cntRun (cp : IVec Cert.Spec.SCp 32) (k : Fin 16) (t : Fin 157) : EReal :=
  ∑ q : Fin 6400, Cert.Spec.hot (cp (ix2 (0 : Fin 1) (row t q))) k

/-- to its sum of column `d`, -/
def sum1Run (xp : FVec Ideal Cert.Spec.SXp .f32) (cp : IVec Cert.Spec.SCp 32) (k : Fin 16) (d : Fin 64) (t : Fin 157) : EReal :=
  ∑ q : Fin 6400, Cert.Spec.hot (cp (ix2 (0 : Fin 1) (row t q))) k * (xp (ix2 (row t q) d) : EReal)

/-- and to its sum of the squares of column `d`. -/
def sum2Run (xp : FVec Ideal Cert.Spec.SXp .f32) (cp : IVec Cert.Spec.SCp 32) (k : Fin 16) (d : Fin 64) (t : Fin 157) : EReal :=
  ∑ q : Fin 6400, Cert.Spec.hot (cp (ix2 (0 : Fin 1) (row t q))) k
    * ((xp (ix2 (row t q) d) : EReal) * (xp (ix2 (row t q) d) : EReal))

/-- The contributions of the runs 0 … n, summed. -/
def upTo (f : Fin 157 → EReal) (n : ℕ) : EReal :=
  ∑ t ∈ Finset.range (n + 1), if h : t < 157 then f ⟨t, h⟩ else 0

/-- After run 0 alone: its contribution. -/
theorem upTo_zero (f : Fin 157 → EReal) : upTo f 0 = f ⟨0, by decide⟩ := by
  unfold upTo
  rw [Finset.sum_range_one]
  rfl

/-- One more run adds its contribution. -/
theorem upTo_succ (f : Fin 157 → EReal) (n : ℕ) (h : n + 1 < 157) : upTo f (n + 1) = upTo f n + f ⟨n + 1, h⟩ := by
  unfold upTo
  rw [Finset.sum_range_succ _ (n + 1), dif_pos h]

/-- After the last run: the sum over all 157 runs. -/
theorem upTo_last (f : Fin 157 → EReal) : upTo f 156 = ∑ t : Fin 157, f t := by
  unfold upTo
  rw [Finset.sum_range]
  exact Finset.sum_congr rfl fun t _ => dif_pos t.isLt

end sums

/-! ## The invariant: after point `n` each block holds its running sum -/

section invariant

variable (V : (c : Dev nD) → (b : Ref sig .tc) → Buf (Elt Ideal) ((c : Thread nD τ).loc b))

/-- The count block after point `n`. -/
theorem cnt_inv (c : Dev nD) : ∀ (n : ℕ) (h : n < cfg0.N) (k : Fin 16),
    ((outsAt0 V c n h).1 (ix2 k (0 : Fin 1)) : EReal) = upTo (cntRun (carr V c) k) n
  | 0, h, k => by
    rw [outs_zero V c h]
    refine (KPay.pay6_apply (cblk V c ⟨0, h⟩) (k0_pay1 (F := Ideal)) k).trans ?_
    rw [KPay.pay1_apply, zero_add, upTo_zero]
    exact Finset.sum_congr rfl fun q _ =>
      congrArg (fun w => Cert.Spec.hot w k) (cblk_apply V c ⟨0, h⟩ q (row ⟨0, by decide⟩ q) rfl)
  | n + 1, h, k => by
    have hN : cfg0.N = 157 := N_0
    have hn : n + 1 < 157 := by omega
    rw [outs_succ V c n h]
    refine (KPay.pay6_apply (cblk V c ⟨n + 1, h⟩) (outsAt0 V c n (Nat.lt_of_succ_lt h)).1 k).trans ?_
    rw [cnt_inv c n (Nat.lt_of_succ_lt h) k, upTo_succ _ n hn]
    refine congrArg (upTo (cntRun (carr V c) k) n + ·) ?_
    exact Finset.sum_congr rfl fun q _ =>
      congrArg (fun w => Cert.Spec.hot w k) (cblk_apply V c ⟨n + 1, h⟩ q (row ⟨n + 1, hn⟩ q) rfl)

/-- The column-sum block after point `n`. -/
theorem sum1_inv (c : Dev nD) : ∀ (n : ℕ) (h : n < cfg0.N) (k : Fin 16) (d : Fin 64),
    ((outsAt0 V c n h).2.1 (ix2 k d) : EReal) = upTo (sum1Run (xarr V c) (carr V c) k d) n
  | 0, h, k, d => by
    rw [outs_zero V c h]
    refine (KPay.pay7_apply (xblk V c ⟨0, h⟩) (cblk V c ⟨0, h⟩) (k0_pay2 (F := Ideal)) k d).trans ?_
    rw [KPay.pay2_apply, zero_add, upTo_zero]
    exact Finset.sum_congr rfl fun q _ =>
      congrArg₂ (fun w (x : EReal) => Cert.Spec.hot w k * x) (cblk_apply V c ⟨0, h⟩ q (row ⟨0, by decide⟩ q) rfl)
        (xblk_apply V c ⟨0, h⟩ q d (row ⟨0, by decide⟩ q) rfl)
  | n + 1, h, k, d => by
    have hN : cfg0.N = 157 := N_0
    have hn : n + 1 < 157 := by omega
    rw [outs_succ V c n h]
    refine (KPay.pay7_apply (xblk V c ⟨n + 1, h⟩) (cblk V c ⟨n + 1, h⟩) (outsAt0 V c n (Nat.lt_of_succ_lt h)).2.1 k d).trans ?_
    rw [sum1_inv c n (Nat.lt_of_succ_lt h) k d, upTo_succ _ n hn]
    refine congrArg (upTo (sum1Run (xarr V c) (carr V c) k d) n + ·) ?_
    exact Finset.sum_congr rfl fun q _ =>
      congrArg₂ (fun w (x : EReal) => Cert.Spec.hot w k * x) (cblk_apply V c ⟨n + 1, h⟩ q (row ⟨n + 1, hn⟩ q) rfl)
        (xblk_apply V c ⟨n + 1, h⟩ q d (row ⟨n + 1, hn⟩ q) rfl)

/-- The block of column sums of squares after point `n`. -/
theorem sum2_inv (c : Dev nD) : ∀ (n : ℕ) (h : n < cfg0.N) (k : Fin 16) (d : Fin 64),
    ((outsAt0 V c n h).2.2 (ix2 k d) : EReal) = upTo (sum2Run (xarr V c) (carr V c) k d) n
  | 0, h, k, d => by
    rw [outs_zero V c h]
    refine (KPay.pay8_apply (xblk V c ⟨0, h⟩) (cblk V c ⟨0, h⟩) (k0_pay3 (F := Ideal)) k d).trans ?_
    rw [KPay.pay3_apply, zero_add, upTo_zero]
    exact Finset.sum_congr rfl fun q _ =>
      congrArg₂ (fun w (x : EReal) => Cert.Spec.hot w k * (x * x)) (cblk_apply V c ⟨0, h⟩ q (row ⟨0, by decide⟩ q) rfl)
        (xblk_apply V c ⟨0, h⟩ q d (row ⟨0, by decide⟩ q) rfl)
  | n + 1, h, k, d => by
    have hN : cfg0.N = 157 := N_0
    have hn : n + 1 < 157 := by omega
    rw [outs_succ V c n h]
    refine (KPay.pay8_apply (xblk V c ⟨n + 1, h⟩) (cblk V c ⟨n + 1, h⟩) (outsAt0 V c n (Nat.lt_of_succ_lt h)).2.2 k d).trans ?_
    rw [sum2_inv c n (Nat.lt_of_succ_lt h) k d, upTo_succ _ n hn]
    refine congrArg (upTo (sum2Run (xarr V c) (carr V c) k d) n + ·) ?_
    exact Finset.sum_congr rfl fun q _ =>
      congrArg₂ (fun w (x : EReal) => Cert.Spec.hot w k * (x * x)) (cblk_apply V c ⟨n + 1, h⟩ q (row ⟨n + 1, hn⟩ q) rfl)
        (xblk_apply V c ⟨n + 1, h⟩ q d (row ⟨n + 1, hn⟩ q) rfl)

end invariant

/-! ## The result arrays

Each output window's block is its whole array at block index (0, 0), written back once, after the last point: the
array ends holding what the block held then, the sum over all 157 runs, which is the flat sum over the padded rows. -/

section result

variable (V : (c : Dev nD) → (b : Ref sig .tc) → Buf (Elt Ideal) ((c : Thread nD τ).loc b))

/-- The output blocks never move, decided over the grid. -/
theorem idx_out : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The last point. -/
abbrev tlast : Fin cfg0.N := ⟨156, lt_of_lt_of_eq (by decide) (show 157 = cfg0.N from N_0.symm)⟩

/-- After the last point the count block is the flat count over the padded rows. -/
theorem cnt_last (c : Dev nD) (t : Fin cfg0.N) (ht : t.val = 156) :
    (outsAt0 V c t.val t.isLt).1 = Cert.Spec.cntP (carr V c) := by
  funext j
  obtain ⟨k, z, rfl⟩ : ∃ (k : Fin 16) (z : Fin 1), j = ix2 k z := ⟨j 0, j 1, eq_ix2 j⟩
  obtain rfl : z = 0 := Subsingleton.elim _ _
  refine (cnt_inv V c t.val t.isLt k).trans ?_
  rw [ht, upTo_last]
  exact (Cert.SumSplit.sum_split 157 6400 1004800 (by decide)
    fun n => Cert.Spec.hot (carr V c (ix2 (0 : Fin 1) n)) k).symm

/-- After the last point the column-sum block is the flat sum over the padded rows. -/
theorem sum1_last (c : Dev nD) (t : Fin cfg0.N) (ht : t.val = 156) :
    (outsAt0 V c t.val t.isLt).2.1 = Cert.Spec.sum1P (xarr V c) (carr V c) := by
  funext j
  obtain ⟨k, d, rfl⟩ : ∃ (k : Fin 16) (d : Fin 64), j = ix2 k d := ⟨j 0, j 1, eq_ix2 j⟩
  refine (sum1_inv V c t.val t.isLt k d).trans ?_
  rw [ht, upTo_last]
  exact (Cert.SumSplit.sum_split 157 6400 1004800 (by decide)
    fun n => Cert.Spec.hot (carr V c (ix2 (0 : Fin 1) n)) k * (xarr V c (ix2 n d) : EReal)).symm

/-- After the last point the block of sums of squares is the flat sum over the padded rows. -/
theorem sum2_last (c : Dev nD) (t : Fin cfg0.N) (ht : t.val = 156) :
    (outsAt0 V c t.val t.isLt).2.2 = Cert.Spec.sum2P (xarr V c) (carr V c) := by
  funext j
  obtain ⟨k, d, rfl⟩ : ∃ (k : Fin 16) (d : Fin 64), j = ix2 k d := ⟨j 0, j 1, eq_ix2 j⟩
  refine (sum2_inv V c t.val t.isLt k d).trans ?_
  rw [ht, upTo_last]
  exact (Cert.SumSplit.sum_split 157 6400 1004800 (by decide)
    fun n => Cert.Spec.hot (carr V c (ix2 (0 : Fin 1) n)) k
      * ((xarr V c (ix2 n d) : EReal) * (xarr V c (ix2 n d) : EReal))).symm

/-- A point that writes back is the last one. -/
theorem last_of_flush {t : Fin cfg0.N} (h : t.val % 157 = 156) : t.val = 156 := by
  have := lt_of_lt_of_eq t.isLt (show cfg0.N = 157 from N_0)
  omega

/-- Window 2's block at any point is the whole [16, 1] array: contents read through it are the contents. -/
theorem whole2 (t : Fin cfg0.N) (G : Vec Ideal S16x1 .f32) :
    (cfg0.win 2).cut (grid0.coords t) G = ((cfg0.win 2).blk t).view.read (Elt Ideal) G := by
  obtain ⟨e0, e1, -, -, -, -⟩ := idx_out t
  funext y
  show G y = G (((cfg0.win 2).blk t).view.emb y)
  refine congrArg G ?_
  funext a; apply Fin.ext
  match a with
  | ⟨0, _⟩ => show (y 0).val = win0_2.index t (0 : Fin 2) * 16 + 1 * (y 0).val; omega
  | ⟨1, _⟩ => show (y 1).val = win0_2.index t (1 : Fin 2) * 1 + 1 * (y 1).val; omega

/-- Window 3's block at any point is the whole [16, 64] array, -/
theorem whole3 (t : Fin cfg0.N) (G : Vec Ideal S16x64 .f32) :
    (cfg0.win 3).cut (grid0.coords t) G = ((cfg0.win 3).blk t).view.read (Elt Ideal) G := by
  obtain ⟨-, -, e0, e1, -, -⟩ := idx_out t
  funext y
  show G y = G (((cfg0.win 3).blk t).view.emb y)
  refine congrArg G ?_
  funext a; apply Fin.ext
  match a with
  | ⟨0, _⟩ => show (y 0).val = win0_3.index t (0 : Fin 2) * 16 + 1 * (y 0).val; omega
  | ⟨1, _⟩ => show (y 1).val = win0_3.index t (1 : Fin 2) * 64 + 1 * (y 1).val; omega

/-- and so is window 4's. -/
theorem whole4 (t : Fin cfg0.N) (G : Vec Ideal S16x64 .f32) :
    (cfg0.win 4).cut (grid0.coords t) G = ((cfg0.win 4).blk t).view.read (Elt Ideal) G := by
  obtain ⟨-, -, -, -, e0, e1⟩ := idx_out t
  funext y
  show G y = G (((cfg0.win 4).blk t).view.emb y)
  refine congrArg G ?_
  funext a; apply Fin.ext
  match a with
  | ⟨0, _⟩ => show (y 0).val = win0_4.index t (0 : Fin 2) * 16 + 1 * (y 0).val; omega
  | ⟨1, _⟩ => show (y 1).val = win0_4.index t (1 : Fin 2) * 64 + 1 * (y 1).val; omega

/-- What the write-back of window 2 writes is the flat count, read through the window's one block. -/
theorem cnt_flushed (c : Dev nD) (t : Fin cfg0.N) (hf : (cfg0.win 2).flush t = true) :
    (dat0 V c).flushed 2 t = ((cfg0.win 2).blk t).view.read (Elt Ideal) (Cert.Spec.cntP (carr V c)) := by
  show (cfg0.win 2).cut (grid0.coords t) ((dat0 V c).after 2 t) = _
  rw [after0_2, cnt_last V c t (last_of_flush ((flush0_2 t).mp hf))]
  exact whole2 t _

/-- What the write-back of window 3 writes is the flat column sums, -/
theorem sum1_flushed (c : Dev nD) (t : Fin cfg0.N) (hf : (cfg0.win 3).flush t = true) :
    (dat0 V c).flushed 3 t
      = ((cfg0.win 3).blk t).view.read (Elt Ideal) (Cert.Spec.sum1P (xarr V c) (carr V c)) := by
  show (cfg0.win 3).cut (grid0.coords t) ((dat0 V c).after 3 t) = _
  rw [after0_3, sum1_last V c t (last_of_flush ((flush0_3 t).mp hf))]
  exact whole3 t _

/-- and of window 4 the flat column sums of squares. -/
theorem sum2_flushed (c : Dev nD) (t : Fin cfg0.N) (hf : (cfg0.win 4).flush t = true) :
    (dat0 V c).flushed 4 t
      = ((cfg0.win 4).blk t).view.read (Elt Ideal) (Cert.Spec.sum2P (xarr V c) (carr V c)) := by
  show (cfg0.win 4).cut (grid0.coords t) ((dat0 V c).after 4 t) = _
  rw [after0_4, sum2_last V c t (last_of_flush ((flush0_4 t).mp hf))]
  exact whole4 t _

/-- Every entry of the [16, 1] array lies in the last point's block of window 2. -/
theorem cover2 (i : S16x1.Idx) : i ∈ ((cfg0.win 2).blk tlast).view.set := by
  obtain ⟨e0, e1, -, -, -, -⟩ := idx_out tlast
  show i ∈ ((View.whole main_v4_0).slice (win0_2.rect tlast)).set
  rw [View.set_slice_whole, Rect.mem_set_unit]
  intro a
  have h0 : (i 0 : Nat) < 16 := (i 0).isLt
  have h1 : (i 1 : Nat) < 1 := (i 1).isLt
  match a with
  | ⟨0, _⟩ => show win0_2.index tlast (0 : Fin 2) * 16 ≤ (i 0 : Nat) ∧ (i 0 : Nat) < win0_2.index tlast (0 : Fin 2) * 16 + 16; omega
  | ⟨1, _⟩ => show win0_2.index tlast (1 : Fin 2) * 1 ≤ (i 1 : Nat) ∧ (i 1 : Nat) < win0_2.index tlast (1 : Fin 2) * 1 + 1; omega

/-- Every entry of the [16, 64] array lies in the last point's block of window 3, -/
theorem cover3 (i : S16x64.Idx) : i ∈ ((cfg0.win 3).blk tlast).view.set := by
  obtain ⟨-, -, e0, e1, -, -⟩ := idx_out tlast
  show i ∈ ((View.whole main_v4_1).slice (win0_3.rect tlast)).set
  rw [View.set_slice_whole, Rect.mem_set_unit]
  intro a
  have h0 : (i 0 : Nat) < 16 := (i 0).isLt
  have h1 : (i 1 : Nat) < 64 := (i 1).isLt
  match a with
  | ⟨0, _⟩ => show win0_3.index tlast (0 : Fin 2) * 16 ≤ (i 0 : Nat) ∧ (i 0 : Nat) < win0_3.index tlast (0 : Fin 2) * 16 + 16; omega
  | ⟨1, _⟩ => show win0_3.index tlast (1 : Fin 2) * 64 ≤ (i 1 : Nat) ∧ (i 1 : Nat) < win0_3.index tlast (1 : Fin 2) * 64 + 64; omega

/-- and of window 4. -/
theorem cover4 (i : S16x64.Idx) : i ∈ ((cfg0.win 4).blk tlast).view.set := by
  obtain ⟨-, -, -, -, e0, e1⟩ := idx_out tlast
  show i ∈ ((View.whole main_v4_2).slice (win0_4.rect tlast)).set
  rw [View.set_slice_whole, Rect.mem_set_unit]
  intro a
  have h0 : (i 0 : Nat) < 16 := (i 0).isLt
  have h1 : (i 1 : Nat) < 64 := (i 1).isLt
  match a with
  | ⟨0, _⟩ => show win0_4.index tlast (0 : Fin 2) * 16 ≤ (i 0 : Nat) ∧ (i 0 : Nat) < win0_4.index tlast (0 : Fin 2) * 16 + 16; omega
  | ⟨1, _⟩ => show win0_4.index tlast (1 : Fin 2) * 64 ≤ (i 1 : Nat) ∧ (i 1 : Nat) < win0_4.index tlast (1 : Fin 2) * 64 + 64; omega

end result

/-! ## The three result arrays -/

variable (V : (c : Dev nD) → (b : Ref sig .tc) → Buf (Elt Ideal) ((c : Thread nD τ).loc b))

theorem cnt_eq (c : Dev nD) :
    ((Gen.dat0 V c).arrAt 2 cfg0.N : FVec Ideal S16x1 .f32) = Cert.Spec.cntP (V c main_v3) :=
  (dat0 V c).arrAt_eq_of_cover 2 (Cert.Spec.cntP (carr V c)) (cnt_flushed V c) fun i =>
    ⟨tlast, (flush0_2 tlast).mpr rfl, cover2 i⟩

theorem sum1_eq (c : Dev nD) :
    ((Gen.dat0 V c).arrAt 3 cfg0.N : FVec Ideal S16x64 .f32) = Cert.Spec.sum1P (V c main_v0) (V c main_v3) :=
  (dat0 V c).arrAt_eq_of_cover 3 (Cert.Spec.sum1P (xarr V c) (carr V c)) (sum1_flushed V c) fun i =>
    ⟨tlast, (flush0_3 tlast).mpr rfl, cover3 i⟩

theorem sum2_eq (c : Dev nD) :
    ((Gen.dat0 V c).arrAt 4 cfg0.N : FVec Ideal S16x64 .f32) = Cert.Spec.sum2P (V c main_v0) (V c main_v3) :=
  (dat0 V c).arrAt_eq_of_cover 4 (Cert.Spec.sum2P (xarr V c) (carr V c)) (sum2_flushed V c) fun i =>
    ⟨tlast, (flush0_4 tlast).mpr rfl, cover4 i⟩

end Cert.KernelIdeal.KStats

end
-- ==== Proof.KApply.lean ====
/-
  The second pass: block t of the output array is rows 6400·t … 6400·t + 6399, and the 157 blocks tile the padded array;
  each entry is the row's sample times the scale its context selects plus the shift it selects.
-/
import proofs.«412077_j73332271612492_1_alg».proof.Proof.Spec
import proofs.«412077_j73332271612492_1_alg».proof.Proof.Gen.KernelIdeal.Frame
import proofs.«412077_j73332271612492_1_alg».proof.Proof.KPay
import proofs.«412077_j73332271612492_1_alg».proof.Proof.LibSumSplit
import Idealize.ShloMosaic.Lib.Pipeline.Value

noncomputable section

namespace Cert.KernelIdeal.KApply

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The index maps over the 157 grid points: the samples and the output move by rows, the context numbers by lanes,
    the scale and the shift stay. -/
theorem blockIndex : ∀ t : Fin cfg1.N,
    win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One entry: if the four blocks hold, where the entry reads them, what the arrays hold at row i 0 and column i 1,
    the body's value there is the second pass at i. -/
theorem entry_eq (x0 : Vec Ideal S6400x64 .f32) (x1 : Vec Ideal S1x6400 .i32) (x2 x3 : Vec Ideal S16x64 .f32)
    (xp : FVec Ideal Cert.Spec.SXp .f32) (cp : IVec Cert.Spec.SCp 32) (sc sh : FVec Ideal Cert.Spec.SG .f32)
    (j : S6400x64.Idx) (i : S1004800x64.Idx)
    (h0 : x0 j = xp i) (h1 : x1 (ix2 (0 : Fin 1) (j 0)) = cp (ix2 (0 : Fin 1) (i 0)))
    (h2 : ∀ k : Fin 16, x2 (ix2 k (j 1)) = sc (ix2 k (i 1))) (h3 : ∀ k : Fin 16, x3 (ix2 k (j 1)) = sh (ix2 k (i 1))) :
    k1_pay1 (F := Ideal) x0 x1 x2 x3 j = Cert.Spec.applyP xp cp sc sh i := by
  obtain ⟨q, d, rfl⟩ : ∃ (q : Fin 6400) (d : Fin 64), j = ix2 q d := ⟨j 0, j 1, eq_ix2 j⟩
  have h1' : x1 (ix2 (0 : Fin 1) q) = cp (ix2 (0 : Fin 1) (i 0)) := h1
  have h2' : ∀ k : Fin 16, x2 (ix2 k d) = sc (ix2 k (i 1)) := h2
  have h3' : ∀ k : Fin 16, x3 (ix2 k d) = sh (ix2 k (i 1)) := h3
  rw [KPay.k1_pay1_apply, h0, h1']
  simp only [h2', h3']
  rfl

/-- Row q of the block of samples at point t is row 6400·t + q of the array. -/
theorem samples_block (c : Dev nD) (t : Fin cfg1.N) (x : S6400x64.Idx) (k : S1004800x64.Idx)
    (hk0 : (k 0).val = 6400 * t.val + (x 0).val) (hk1 : (k 1).val = (x 1).val) :
    (iblk1 V c 0 t : Vec Ideal S6400x64 .f32) x = (V c main_v0 : S1004800x64.Idx → Elt Ideal .f32) k := by
  obtain ⟨e0, e1, -⟩ := blockIndex t
  unfold iblk1
  rw [View.read_apply]
  show V c main_v0 _ = V c main_v0 _
  congr 1
  funext a
  apply Fin.ext
  match a with
  | ⟨0, _⟩ => show win1_0.index t 0 * 6400 + 1 * (x 0).val = (k 0).val; rw [e0, hk0]; omega
  | ⟨1, _⟩ => show win1_0.index t 1 * 64 + 1 * (x 1).val = (k 1).val; rw [e1, hk1]; omega

/-- Lane q of the block of context numbers at point t is lane 6400·t + q of the row. -/
theorem contexts_block (c : Dev nD) (t : Fin cfg1.N) (x : S1x6400.Idx) (k : S1x1004800.Idx)
    (hk0 : (k 0).val = (x 0).val) (hk1 : (k 1).val = 6400 * t.val + (x 1).val) :
    (iblk1 V c 1 t : Vec Ideal S1x6400 .i32) x = (V c main_v3 : S1x1004800.Idx → Elt Ideal .i32) k := by
  obtain ⟨-, -, e0, e1, -⟩ := blockIndex t
  unfold iblk1
  rw [View.read_apply]
  show V c main_v3 _ = V c main_v3 _
  congr 1
  funext a
  apply Fin.ext
  match a with
  | ⟨0, _⟩ => show win1_1.index t 0 * 1 + 1 * (x 0).val = (k 0).val; rw [e0, hk0]; omega
  | ⟨1, _⟩ => show win1_1.index t 1 * 6400 + 1 * (x 1).val = (k 1).val; rw [e1, hk1]; omega

/-- The block of scales at every point is the whole array. -/
theorem scale_block (c : Dev nD) (t : Fin cfg1.N) (x k : S16x64.Idx)
    (hk0 : (k 0).val = (x 0).val) (hk1 : (k 1).val = (x 1).val) :
    (iblk1 V c 2 t : Vec Ideal S16x64 .f32) x = (V c main_v28 : S16x64.Idx → Elt Ideal .f32) k := by
  obtain ⟨-, -, -, -, e0, e1, -⟩ := blockIndex t
  unfold iblk1
  rw [View.read_apply]
  show V c main_v28 _ = V c main_v28 _
  congr 1
  funext a
  apply Fin.ext
  match a with
  | ⟨0, _⟩ => show win1_2.index t 0 * 16 + 1 * (x 0).val = (k 0).val; rw [e0, hk0]; omega
  | ⟨1, _⟩ => show win1_2.index t 1 * 64 + 1 * (x 1).val = (k 1).val; rw [e1, hk1]; omega

/-- The block of shifts at every point is the whole array. -/
theorem shift_block (c : Dev nD) (t : Fin cfg1.N) (x k : S16x64.Idx)
    (hk0 : (k 0).val = (x 0).val) (hk1 : (k 1).val = (x 1).val) :
    (iblk1 V c 3 t : Vec Ideal S16x64 .f32) x = (V c main_v29 : S16x64.Idx → Elt Ideal .f32) k := by
  obtain ⟨-, -, -, -, -, -, e0, e1, -⟩ := blockIndex t
  unfold iblk1
  rw [View.read_apply]
  show V c main_v29 _ = V c main_v29 _
  congr 1
  funext a
  apply Fin.ext
  match a with
  | ⟨0, _⟩ => show win1_3.index t 0 * 16 + 1 * (x 0).val = (k 0).val; rw [e0, hk0]; omega
  | ⟨1, _⟩ => show win1_3.index t 1 * 64 + 1 * (x 1).val = (k 1).val; rw [e1, hk1]; omega

/-- What point t writes back is block t of the second pass of the arrays as the region finds them. -/
theorem flushed_eq (c : Dev nD) (t : Fin cfg1.N) :
    (dat1 V c).flushed 4 t = ((cfg1.win 4).blk t).view.read (Elt Ideal)
      (Cert.Spec.applyP (V c main_v0) (V c main_v3) (V c main_v28) (V c main_v29)) := by
  show (cfg1.win 4).cut (grid1.coords t) ((dat1 V c).after 4 t) = _
  rw [after1_4]
  unfold Gen.out1_4
  rw [View.canon_unit_zero hz]
  simp only [View.ld_unit_zero (S := S6400x64) hz, View.ld_unit_zero (S := S1x6400) hz, View.ld_unit_zero (S := S16x64) hz]
  obtain ⟨-, -, -, -, -, -, -, -, e0, e1⟩ := blockIndex t
  funext j
  rw [View.read_apply]
  have hj0 : (j 0).val < 6400 := (j 0).isLt
  have hj1 : (j 1).val < 64 := (j 1).isLt
  refine entry_eq _ _ _ _ _ _ _ _ _ _ ?_ ?_ (fun k => ?_) (fun k => ?_)
  · refine samples_block V c t _ _ ?_ ?_
    · show win1_4.index t 0 * 6400 + 1 * (j 0).val = 6400 * t.val + (j 0).val; rw [e0]; omega
    · show win1_4.index t 1 * 64 + 1 * (j 1).val = (j 1).val; rw [e1]; omega
  · refine contexts_block V c t _ _ rfl ?_
    show win1_4.index t 0 * 6400 + 1 * (j 0).val = 6400 * t.val + (j 0).val; rw [e0]; omega
  · refine scale_block V c t _ _ rfl ?_
    show win1_4.index t 1 * 64 + 1 * (j 1).val = (j 1).val; rw [e1]; omega
  · refine shift_block V c t _ _ rfl ?_
    show win1_4.index t 1 * 64 + 1 * (j 1).val = (j 1).val; rw [e1]; omega

/-- An index of the output array is in point t's block iff each coordinate is in the block's range on its axis. -/
theorem mem_blk (t : Fin cfg1.N) (i : S1004800x64.Idx) :
    i ∈ ((cfg1.win 4).blk t).view.set ↔ ∀ a : Fin 2, win1_4.index t a * S6400x64.size a ≤ (i a).val
      ∧ (i a).val < win1_4.index t a * S6400x64.size a + S6400x64.size a := by
  show i ∈ ((View.whole main_v30).slice (win1_4.rect t)).set ↔ _
  rw [View.set_slice_whole, Rect.mem_set_unit]
  exact Iff.rfl

/-- Row r of the output array lies in the block of point r / 6400. -/
theorem cover (i : S1004800x64.Idx) :
    ∃ t : Fin cfg1.N, (cfg1.win 4).flush t = true ∧ i ∈ ((cfg1.win 4).blk t).view.set := by
  have hi0 : (i 0).val < 1004800 := (i 0).isLt
  have hi1 : (i 1).val < 64 := (i 1).isLt
  obtain ⟨t, ht⟩ : ∃ t : Fin cfg1.N, t.val = (i 0).val / 6400 :=
    ⟨⟨(i 0).val / 6400, by show _ < grid1.N; rw [N_1]; omega⟩, rfl⟩
  obtain ⟨-, -, -, -, -, -, -, -, e0, e1⟩ := blockIndex t
  refine ⟨t, flush1_4 t, ?_⟩
  rw [mem_blk]
  intro a
  match a with
  | ⟨0, _⟩ =>
    show win1_4.index t 0 * 6400 ≤ (i 0).val ∧ (i 0).val < win1_4.index t 0 * 6400 + 6400
    rw [e0, ht]; omega
  | ⟨1, _⟩ =>
    show win1_4.index t 1 * 64 ≤ (i 1).val ∧ (i 1).val < win1_4.index t 1 * 64 + 64
    rw [e1]; omega

/-- After the run the output array is the second pass of the samples, the context numbers, the scale and the shift. -/
theorem apply_eq (c : Dev nD) :
    ((Gen.dat1 V c).arrAt 4 cfg1.N : FVec Ideal S1004800x64 .f32)
      = Cert.Spec.applyP (V c main_v0) (V c main_v3) (V c main_v28) (V c main_v29) :=
  (dat1 V c).arrAt_eq_of_cover 4 (Cert.Spec.applyP (V c main_v0) (V c main_v3) (V c main_v28) (V c main_v29))
    (fun t _ => flushed_eq V c t) cover

end Cert.KernelIdeal.KApply

end
-- ==== Proof.KValue.lean ====
/-
  The kernel's result buffer as a function of the arguments: the last host operation keeps the first 1000000 rows of the
  second pass's output; the second pass reads the padded samples and context row and the guarded scale and shift; those
  are the shared chain on the first pass's three sums; and the first pass's sums over the padded rows are the sums over
  the true rows. Under context numbers in range this is the common result.
-/
import proofs.«412077_j73332271612492_1_alg».proof.Proof.Spec
import proofs.«412077_j73332271612492_1_alg».proof.Proof.Math
import proofs.«412077_j73332271612492_1_alg».proof.Proof.KHost
import proofs.«412077_j73332271612492_1_alg».proof.Proof.KStats
import proofs.«412077_j73332271612492_1_alg».proof.Proof.KApply

noncomputable section

namespace Cert.KernelIdeal.KValue

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The first pass's count block, at the second region's entry, is the count over the true rows. -/
theorem cnt_mid (c : Dev nD) :
    @Eq (FVec Ideal S16x1 .f32) (Gen.V6 m ρ c main_v4_0) (Cert.Spec.cnt (m ((c : Thread nD τ).loc main_arg1))) := by
  have h1 : @Eq (FVec Ideal S16x1 .f32) (Gen.V6 m ρ c main_v4_0) ((Gen.dat0 (Gen.V5 m ρ) c).arrAt 2 cfg0.N) :=
    (Gen.hF0 m ρ c 2).symm
  rw [h1, Cert.KernelIdeal.KStats.cnt_eq (Gen.V5 m ρ) c, Cert.KernelIdeal.KHost.v3_entry m ρ c]
  exact Cert.Spec.cntP_pad _

theorem sum1_mid (c : Dev nD) :
    @Eq (FVec Ideal S16x64 .f32) (Gen.V6 m ρ c main_v4_1)
      (Cert.Spec.sum1 (m ((c : Thread nD τ).loc main_arg0)) (m ((c : Thread nD τ).loc main_arg1))) := by
  have h1 : @Eq (FVec Ideal S16x64 .f32) (Gen.V6 m ρ c main_v4_1) ((Gen.dat0 (Gen.V5 m ρ) c).arrAt 3 cfg0.N) :=
    (Gen.hF0 m ρ c 3).symm
  rw [h1, Cert.KernelIdeal.KStats.sum1_eq (Gen.V5 m ρ) c, Cert.KernelIdeal.KHost.v0_entry m ρ c,
    Cert.KernelIdeal.KHost.v3_entry m ρ c]
  exact Cert.Spec.sum1P_pad _ _

theorem sum2_mid (c : Dev nD) :
    @Eq (FVec Ideal S16x64 .f32) (Gen.V6 m ρ c main_v4_2)
      (Cert.Spec.sum2 (m ((c : Thread nD τ).loc main_arg0)) (m ((c : Thread nD τ).loc main_arg1))) := by
  have h1 : @Eq (FVec Ideal S16x64 .f32) (Gen.V6 m ρ c main_v4_2) ((Gen.dat0 (Gen.V5 m ρ) c).arrAt 4 cfg0.N) :=
    (Gen.hF0 m ρ c 4).symm
  rw [h1, Cert.KernelIdeal.KStats.sum2_eq (Gen.V5 m ρ) c, Cert.KernelIdeal.KHost.v0_entry m ρ c,
    Cert.KernelIdeal.KHost.v3_entry m ρ c]
  exact Cert.Spec.sum2P_pad _ _

/-- THE KERNEL'S VALUE: the result buffer after the run is the common result of the arguments. -/
theorem result_eq (c : Dev nD) (h : Cert.Spec.InRange (m ((c : Thread nD τ).loc main_arg1))) :
    @Eq (FVec Ideal S1000000x64 .f32) (Gen.W12 m ρ c (Proc.devRef .tc main_v31))
      (Cert.Spec.result (m ((c : Thread nD τ).loc main_arg0)) (m ((c : Thread nD τ).loc main_arg1))
        (m ((c : Thread nD τ).loc main_arg2)) (m ((c : Thread nD τ).loc main_arg3)) (m ((c : Thread nD τ).loc main_arg4))) := by
  have hout : @Eq (FVec Ideal S1004800x64 .f32) (Gen.V11 m ρ c main_v30) ((Gen.dat1 (Gen.V10 m ρ) c).arrAt 4 cfg1.N) :=
    (Gen.hF1 m ρ c 4).symm
  rw [Cert.KernelIdeal.KHost.v31_tail m ρ c, hout, Cert.KernelIdeal.KApply.apply_eq (Gen.V10 m ρ) c,
    Cert.KernelIdeal.KHost.v0_mid m ρ c, Cert.KernelIdeal.KHost.v3_mid m ρ c,
    Cert.KernelIdeal.KHost.v28_mid m ρ c, Cert.KernelIdeal.KHost.v29_mid m ρ c,
    cnt_mid m ρ c, sum1_mid m ρ c, sum2_mid m ρ c,
    Cert.KernelIdeal.KHost.v0_entry m ρ c, Cert.KernelIdeal.KHost.v3_entry m ρ c]
  exact Cert.Spec.kernel_result _ _ _ _ _ h

end Cert.KernelIdeal.KValue

end
-- ==== Proof.LibSegmentSum.lean ====
import Idealize.ShloMosaic.PureOps.Ideal
import Idealize.ShloMosaic.PureOps.Ideal.Laws
import Idealize.ShloMosaic.Lib.ValueIdx
import Idealize.ShloMosaic.Lib.ValueIdxRank1

/-!
A float scatter-add of a flat array read at an index.

A segment sum — `K` accumulators, `N` values, value `n` added into the accumulator its segment number
names — is a scatter with an `add` body whose operand is a rank-1 array of `K` entries, whose scatter
indices are the `[N, 1]` column of segment numbers and whose updates are the `N` values: no update window
axes, the operand's one axis inserted and start-indexed, the index vector on axis 1.  Over the extended
reals entry `s` of the result is the operand's entry plus the sum of the updates whose segment number,
read signed, is `s`; an update whose number is negative or `K` and above lands nowhere.
-/

noncomputable section

open scoped BigOperators

namespace Idealize.ShloMosaic.SegmentSum

open Idealize.ShloMosaic Idealize.ShloMosaic.ValueIdx

/-- The start of update `n`'s window on the operand's one axis: row `n` of the index column, read signed. -/
private theorem start_eq {K N w : Nat} (d : ScatterDims ⟨1, ![K]⟩ ⟨2, ![N, 1]⟩ ⟨1, ![N]⟩)
    (hsd : d.scatterDimsToOperandDims = [0]) (hiv : d.indexVectorDim = 1)
    (idx : IVec ⟨2, ![N, 1]⟩ w) (n : Fin N) (a : Fin 1) :
    d.start (ix1 n) idx a = (idx (ix2 n (0 : Fin 1))).toInt := by
  obtain rfl : a = 0 := Subsingleton.elim _ _
  have hm : (0 : Fin 1) ∈ d.scatterDimsToOperandDims := by rw [hsd]; exact List.mem_singleton.mpr rfl
  unfold ScatterDims.start
  rw [dif_pos hm]
  congr 2
  funext b
  match b with
  | ⟨0, _⟩ =>
    -- axis 0 of the index column is its one scatter axis: it reads the update's one coordinate
    unfold ScatterDims.siIdx
    rw [dif_neg (by rw [hiv]; simp)]
    unfold ScatterDims.siCoord
    apply Fin.ext
    simp only [Fin.val_cast]
    have e : ∀ X : Fin 1, ((ix1 n : (⟨1, ![N]⟩ : Shape).Idx) X).val = n.val := fun X => by
      obtain rfl : X = 0 := Subsingleton.elim _ _
      rfl
    exact e _
  | ⟨1, _⟩ =>
    -- axis 1 is the index vector's: the component number, the position of operand axis 0 in the one-entry map
    unfold ScatterDims.siIdx
    rw [dif_pos (by rw [hiv])]
    apply Fin.ext
    show List.idxOf (0 : Fin 1) d.scatterDimsToOperandDims = 0
    rw [hsd]; simp

/-- The operand's one axis is inserted, so the window coordinate on it is `0`. -/
private theorem window_eq {K N : Nat} (d : ScatterDims ⟨1, ![K]⟩ ⟨2, ![N, 1]⟩ ⟨1, ![N]⟩)
    (hiw : d.insertedWindowDims = [0]) (j : (⟨1, ![N]⟩ : Shape).Idx) (a : Fin 1) :
    d.window j a = 0 := by
  obtain rfl : a = 0 := Subsingleton.elim _ _
  unfold ScatterDims.window
  rw [dif_neg]
  simp [ScatterDims.sKept, Shape.kept, hiw]

/-- Where update `n` lands: at the entry its segment number names, when that is one of `0 … K - 1`. -/
theorem resultIdx?_eq_some_iff {K N w : Nat} (d : ScatterDims ⟨1, ![K]⟩ ⟨2, ![N, 1]⟩ ⟨1, ![N]⟩)
    (huw : d.updateWindowDims = []) (hiw : d.insertedWindowDims = [0])
    (hsd : d.scatterDimsToOperandDims = [0]) (hiv : d.indexVectorDim = 1)
    (idx : IVec ⟨2, ![N, 1]⟩ w) (n : Fin N) (s : Fin K) :
    d.resultIdx? (ix1 n) idx = some (ix1 s) ↔ (idx (ix2 n (0 : Fin 1))).toInt = (s.val : Int) := by
  have hst := start_eq d hsd hiv idx n
  have hwin := window_eq d hiw (ix1 n)
  have hK : (⟨1, ![K]⟩ : Shape).size (0 : Fin 1) = K := rfl
  have hs := s.isLt
  unfold ScatterDims.resultIdx?
  split
  · next h =>
    have h0 := h 0
    rw [hst, hwin] at h0
    rw [Option.some.injEq]
    constructor
    · intro e
      have e0 := congrArg (fun f => (f (0 : Fin 1)).val) e
      simp only [hst, hwin] at e0
      change ((idx (ix2 n (0 : Fin 1))).toInt + ((0 : Nat) : Int)).toNat = s.val at e0
      omega
    · intro e
      funext a
      obtain rfl : a = 0 := Subsingleton.elim _ _
      apply Fin.ext
      simp only [hst, hwin]
      show ((idx (ix2 n (0 : Fin 1))).toInt + ((0 : Nat) : Int)).toNat = s.val
      omega
  · next h =>
    constructor
    · intro e; exact absurd e (by simp)
    · intro e
      exfalso
      apply h
      intro a
      obtain rfl : a = 0 := Subsingleton.elim _ _
      rw [hst, hwin, hK, e]
      omega

/-- THE SEGMENT SUM AT AN ENTRY: the operand's entry plus the updates of that segment. -/
theorem scatterAdd_apply {K N w : Nat} (d : ScatterDims ⟨1, ![K]⟩ ⟨2, ![N, 1]⟩ ⟨1, ![N]⟩)
    (huw : d.updateWindowDims = []) (hiw : d.insertedWindowDims = [0])
    (hsd : d.scatterDimsToOperandDims = [0]) (hiv : d.indexVectorDim = 1)
    (x : FVec Ideal ⟨1, ![K]⟩ .f32) (idx : IVec ⟨2, ![N, 1]⟩ w) (upd : FVec Ideal ⟨1, ![N]⟩ .f32) (s : Fin K) :
    Host.scatterAdd (F := Ideal) d x idx upd (ix1 s)
      = x (ix1 s) + ∑ n : Fin N, if (idx (ix2 n (0 : Fin 1))).toInt = (s.val : Int) then upd (ix1 n) else 0 := by
  show Ideal.hostScatterAdd d x idx upd (ix1 s) = _
  unfold Ideal.hostScatterAdd
  congr 1
  rw [Finset.sum_filter]
  -- the updates' indices are the numbers below `N`
  rw [← Equiv.sum_comp (idxEquiv1 (n := N)).symm]
  refine Finset.sum_congr rfl fun n _ => ?_
  show (if d.resultIdx? (ix1 n) idx = some (ix1 s) then upd (ix1 n) else 0) = _
  simp only [resultIdx?_eq_some_iff d huw hiw hsd hiv idx n s]

end Idealize.ShloMosaic.SegmentSum

end
-- ==== Proof.LibSegmentRows.lean ====
import Idealize.ShloMosaic.PureOps.Ideal
import Idealize.ShloMosaic.PureOps.Ideal.Laws
import Idealize.ShloMosaic.Lib.ValueIdx

/-!
A float scatter-add of rows read at an entry.

`K` accumulator rows of `D` columns, `N` update rows, update row `n` added into the accumulator row its segment number
names: a scatter with an `add` body whose operand is `[K, D]`, whose scatter indices are the `[N, 1]` column of segment
numbers and whose updates are `[N, D]` — update window axis 1, the operand's axis 0 inserted and start-indexed, the index
vector on axis 1. Over the extended reals entry `(s, j)` of the result is the operand's entry plus the sum over the
update rows whose segment number, read signed, is `s` of their column `j`; a row whose number is negative or `K` and
above lands nowhere.
-/

noncomputable section

open scoped BigOperators

namespace Idealize.ShloMosaic.SegmentRows

open Idealize.ShloMosaic Idealize.ShloMosaic.ValueIdx

/-- The updates' one scatter axis — an axis that is not the window axis — is axis 0. -/
private theorem uScatter_mem {K D N : Nat} (d : ScatterDims ⟨2, ![K, D]⟩ ⟨2, ![N, 1]⟩ ⟨2, ![N, D]⟩)
    (huw : d.updateWindowDims = [1]) (X : Fin 2) (hX : X ∈ d.uScatter) : X = 0 := by
  have h := (List.mem_filter.1 hX).2
  rw [huw] at h
  match X with
  | ⟨0, _⟩ => rfl
  | ⟨1, _⟩ => simp at h

/-- The start of update `(n, j')`'s window on the operand's row axis: row `n` of the index column, read signed. -/
private theorem start_zero {K D N w : Nat} (d : ScatterDims ⟨2, ![K, D]⟩ ⟨2, ![N, 1]⟩ ⟨2, ![N, D]⟩)
    (huw : d.updateWindowDims = [1])
    (hsd : d.scatterDimsToOperandDims = [0]) (hiv : d.indexVectorDim = 1)
    (idx : IVec ⟨2, ![N, 1]⟩ w) (n : Fin N) (j' : Fin D) :
    d.start (ix2 n j') idx 0 = (idx (ix2 n (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    -- axis 0 of the index column is its one scatter axis: it reads the update's row coordinate
    unfold ScatterDims.siIdx
    rw [dif_neg (by rw [hiv]; simp)]
    unfold ScatterDims.siCoord
    apply Fin.ext
    simp only [Fin.val_cast]
    have e : ∀ X : Fin 2, X ∈ d.uScatter → ((ix2 n j' : (⟨2, ![N, D]⟩ : Shape).Idx) X).val = n.val := fun X hX => by
      obtain rfl := uScatter_mem d huw X hX
      rfl
    exact e _ (List.getElem_mem _)
  | ⟨1, _⟩ =>
    -- axis 1 is the index vector's: the component number, the position of operand axis 0 in the one-entry map
    unfold ScatterDims.siIdx
    rw [dif_pos (by rw [hiv])]
    apply Fin.ext
    show List.idxOf (0 : Fin 2) d.scatterDimsToOperandDims = 0
    rw [hsd]; simp

/-- The map names no start for the operand's column axis: the window starts at column `0`. -/
private theorem start_one {K D N w : Nat} (d : ScatterDims ⟨2, ![K, D]⟩ ⟨2, ![N, 1]⟩ ⟨2, ![N, D]⟩)
    (hsd : d.scatterDimsToOperandDims = [0])
    (idx : IVec ⟨2, ![N, 1]⟩ w) (i : (⟨2, ![N, D]⟩ : Shape).Idx) :
    d.start i idx 1 = 0 := by
  unfold ScatterDims.start
  rw [dif_neg]
  rw [hsd]; simp

/-- The operand's row axis is inserted, so the window coordinate on it is `0`. -/
private theorem window_zero {K D N : Nat} (d : ScatterDims ⟨2, ![K, D]⟩ ⟨2, ![N, 1]⟩ ⟨2, ![N, D]⟩)
    (hiw : d.insertedWindowDims = [0]) (i : (⟨2, ![N, D]⟩ : Shape).Idx) :
    d.window i 0 = 0 := by
  unfold ScatterDims.window
  rw [dif_neg]
  simp [ScatterDims.sKept, Shape.kept, hiw]

/-- The operand's column axis is its one kept axis: the window coordinate on it is the update's column. -/
private theorem window_one {K D N : Nat} (d : ScatterDims ⟨2, ![K, D]⟩ ⟨2, ![N, 1]⟩ ⟨2, ![N, D]⟩)
    (huw : d.updateWindowDims = [1]) (hiw : d.insertedWindowDims = [0]) (i : (⟨2, ![N, D]⟩ : Shape).Idx) :
    d.window i 1 = (i 1).val := by
  have hm : (1 : Fin 2) ∈ d.sKept := by
    simp [ScatterDims.sKept, Shape.kept, hiw]
  unfold ScatterDims.window
  rw [dif_pos hm]
  have e : ∀ X : Fin 2, X ∈ d.updateWindowDims → X = 1 := fun X hX => by
    rw [huw] at hX; exact List.mem_singleton.1 hX
  exact congrArg (fun X => (i X).val) (e _ (List.getElem_mem _))

/-- Where update `(n, j')` lands: in its own column, at the row its segment number names when that is one of
    `0 … K - 1`. -/
theorem resultIdx?_eq_some_iff {K D N w : Nat} (d : ScatterDims ⟨2, ![K, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (idx : IVec ⟨2, ![N, 1]⟩ w) (n : Fin N) (j' : Fin D) (s : Fin K) (j : Fin D) :
    d.resultIdx? (ix2 n j') idx = some (ix2 s j)
      ↔ (idx (ix2 n (0 : Fin 1))).toInt = (s.val : Int) ∧ j' = j := by
  have hst0 := start_zero d huw hsd hiv idx n j'
  have hst1 := start_one d hsd idx (ix2 n j')
  have hw0 := window_zero d hiw (ix2 n j')
  have hw1 : d.window (ix2 n j') 1 = j'.val := window_one d huw hiw (ix2 n j')
  have hK : (⟨2, ![K, D]⟩ : Shape).size (0 : Fin 2) = K := rfl
  have hD : (⟨2, ![K, D]⟩ : Shape).size (1 : Fin 2) = D := rfl
  have hs := s.isLt
  have hj := j.isLt
  have hj' := j'.isLt
  unfold ScatterDims.resultIdx?
  split
  · next h =>
    rw [Option.some.injEq]
    constructor
    · intro e
      have e0 := congrArg (fun f => (f (0 : Fin 2)).val) e
      have e1 := congrArg (fun f => (f (1 : Fin 2)).val) e
      simp only [hst0, hst1, hw0, hw1] at e0 e1
      change ((idx (ix2 n (0 : Fin 1))).toInt + ((0 : Nat) : Int)).toNat = s.val at e0
      change ((0 : Int) + ((j'.val : Nat) : Int)).toNat = j.val at e1
      have h0 := h 0
      rw [hst0, hw0] at h0
      exact ⟨by omega, Fin.ext (by omega)⟩
    · rintro ⟨e, rfl⟩
      funext a
      match a with
      | ⟨0, _⟩ =>
        apply Fin.ext
        show (d.start (ix2 n j') idx 0 + ((d.window (ix2 n j') 0 : Nat) : Int)).toNat = s.val
        rw [hst0, hw0]; omega
      | ⟨1, _⟩ =>
        apply Fin.ext
        show (d.start (ix2 n j') idx 1 + ((d.window (ix2 n j') 1 : Nat) : Int)).toNat = j'.val
        rw [hst1, hw1]; omega
  · next h =>
    constructor
    · intro e; exact absurd e (by simp)
    · rintro ⟨e, rfl⟩
      exfalso
      apply h
      rw [Fin.forall_fin_two]
      refine ⟨?_, ?_⟩
      · rw [hst0, hw0, hK, e]; omega
      · rw [hst1, hw1, hD]; omega

/-- THE SEGMENT SUM OF ROWS AT AN ENTRY: the operand's entry plus column `j` of the update rows of that segment. -/
theorem scatterAdd_rows_apply {K D N w : Nat} (d : ScatterDims ⟨2, ![K, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (x : FVec Ideal ⟨2, ![K, D]⟩ .f32) (idx : IVec ⟨2, ![N, 1]⟩ w) (upd : FVec Ideal ⟨2, ![N, D]⟩ .f32)
    (s : Fin K) (j : Fin D) :
    Host.scatterAdd (F := Ideal) d x idx upd (ix2 s j)
      = x (ix2 s j) + ∑ n : Fin N, if (idx (ix2 n (0 : Fin 1))).toInt = (s.val : Int) then upd (ix2 n j) else 0 := by
  show Ideal.hostScatterAdd d x idx upd (ix2 s j) = _
  unfold Ideal.hostScatterAdd
  congr 1
  -- the sum over the update indices that land on `(s, j)`, as a double sum over rows and columns
  rw [Finset.sum_filter, sum_idx2]
  refine Finset.sum_congr rfl fun n _ => ?_
  simp only [resultIdx?_eq_some_iff d huw hiw hsd hiv idx n _ s j]
  -- in row `n` only column `j` lands in column `j`
  by_cases hA : (idx (ix2 n (0 : Fin 1))).toInt = (s.val : Int)
  · simp only [hA, true_and]
    rw [Finset.sum_ite_eq']
    simp
  · simp [hA]

end Idealize.ShloMosaic.SegmentRows

end
-- ==== Proof.LibGather.lean ====
/-
  The two rank-2 forms of StableHLO's gather that indexing a matrix by a vector of positions produces, each read at
  one result index.

  A ROW gather takes an operand [N, D] and a column [B, 1] of start indices to the result [B, D] whose row b is the
  operand's row named by the b-th start index. A COLUMN gather takes an operand [N, M] and a column [B, 1] of start
  indices to the result [N, B] whose column b is the operand's column named by the b-th start index. StableHLO reads a
  start index as a signed word and clamps it so that the slice fits inside the operand. For a 32-bit word whose
  unsigned value is below the extent of the indexed axis, and an extent of at most 2^31, the signed reading is the
  unsigned value and the clamp does nothing: the result element is the operand's element at that row (column).

  Both theorems are stated for any record of dimension numbers whose fields are the lists of these two
  forms; the record's well-formedness proof is left abstract.
-/
import Idealize.ShloMosaic.PureOps.Dims
import Idealize.ShloMosaic.PureOps.ShapeOps
import Idealize.ShloMosaic.Lib.ValueIdx

namespace Cert.LibGather

open Idealize.ShloMosaic Idealize.ShloMosaic.ValueIdx

/-- A 32-bit start index whose unsigned value is below an extent n ≤ 2^31, read signed and clamped into [0, n − 1],
    is its unsigned value: the sign bit is clear, and the value is already at most n − 1. -/
private theorem clamp_eq (v : BitVec 32) (n : Nat) (hn : n ≤ 2 ^ 31) (hlt : v.toNat < n) :
    min v.toInt.toNat (n - 1) = v.toNat := by
  have h2 : 2 * v.toNat < 2 ^ 32 := by omega
  rw [BitVec.toInt_eq_toNat_of_lt h2, Int.toNat_natCast]
  exact Nat.min_eq_left (by omega)

private theorem zero_mem : (0 : Fin 2) ∈ ([0] : List (Fin 2)) := by decide
private theorem one_mem : (1 : Fin 2) ∈ ([1] : List (Fin 2)) := by decide
private theorem one_not_mem : (1 : Fin 2) ∉ ([0] : List (Fin 2)) := by decide
private theorem zero_not_mem : (0 : Fin 2) ∉ ([1] : List (Fin 2)) := by decide

/-! ## The row gather -/

/-- The dimension numbers of a row gather (operand [N, D], start indices [B, 1], result [B, D]), over an abstract
    proof of their conditions. -/
private abbrev rowsDims (N D B : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

private theorem rows_apply {N D B : Nat} {α : Type}
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather (rowsDims N D B wf) x idx (ix2 b c) = x (ix2 ⟨(idx (ix2 b 0)).toNat, hlt⟩ c) := by
  unfold Host.gather
  refine congrArg x ?_
  funext a
  refine Fin.ext ?_
  show (rowsDims N D B wf).start (ix2 b c) idx a + (rowsDims N D B wf).batchCoord (ix2 b c) a
      + (rowsDims N D B wf).offCoord (ix2 b c) a = _
  rw [GatherDims.batchCoord_eq_zero _ _ _ List.not_mem_nil, Nat.add_zero]
  match a with
  | ⟨0, _⟩ =>
    -- axis 0 is collapsed and start-indexed: the clamped start index, no offset
    show (rowsDims N D B wf).start (ix2 b c) idx (0 : Fin 2) + (rowsDims N D B wf).offCoord (ix2 b c) (0 : Fin 2)
      = (idx (ix2 b 0)).toNat
    rw [GatherDims.offCoord_eq_zero _ _ _ (fun h => ((GatherDims.mem_sKept _ _).mp h).1 zero_mem), Nat.add_zero]
    unfold GatherDims.start
    rw [dif_pos (show (0 : Fin 2) ∈ (rowsDims N D B wf).startIndexMap from zero_mem)]
    have hsi : (rowsDims N D B wf).siIdx (ix2 b c) ⟨List.idxOf (0 : Fin 2) (rowsDims N D B wf).startIndexMap,
        List.idxOf_lt_length_iff.2 zero_mem⟩ = ix2 b 0 := by
      funext k; refine Fin.ext ?_
      match k with
      | ⟨0, _⟩ => rfl
      | ⟨1, _⟩ => rfl
    rw [hsi]
    exact clamp_eq _ N hN hlt
  | ⟨1, _⟩ =>
    -- axis 1 is the offset axis, not start-indexed: start 0, the result's column coordinate
    show (rowsDims N D B wf).start (ix2 b c) idx (1 : Fin 2) + (rowsDims N D B wf).offCoord (ix2 b c) (1 : Fin 2)
      = c.val
    have hs : (rowsDims N D B wf).start (ix2 b c) idx (1 : Fin 2) = 0 := by
      unfold GatherDims.start
      rw [dif_neg (show (1 : Fin 2) ∉ (rowsDims N D B wf).startIndexMap from one_not_mem)]
    rw [hs, Nat.zero_add]
    rfl

/-- A row gather (operand [N, D], start indices [B, 1], result [B, D]; offset_dims = [1], collapsed_slice_dims = [0],
    start_index_map = [0], index_vector_dim = 1, slice sizes [1, D]) read at (b, c): row (idx b) of the operand at
    column c, when the word idx b names a row. -/
theorem gather_rows_apply {N D B : Nat} {α : Type} (d : GatherDims ⟨2, ![N, D]⟩ ⟨2, ![B, 1]⟩ ⟨2, ![B, D]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather d x idx (ix2 b c) = x (ix2 ⟨(idx (ix2 b 0)).toNat, hlt⟩ c) := by
  obtain ⟨od, cd, ob, sb, sm, iv, ss, wf⟩ := d
  dsimp only at h1 h2 h3 h4 h5 h6 h7
  subst h1 h2 h3 h4 h5 h6 h7
  exact rows_apply wf x idx b c hN hlt

/-! ## The column gather -/

/-- The dimension numbers of a column gather (operand [N, M], start indices [B, 1], result [N, B]), over an abstract
    proof of their conditions. -/
private abbrev colsDims (N M B : Nat)
    (wf : GatherDims.WF ⟨2, ![N, M]⟩ ⟨2, ![B, 1]⟩ ⟨2, ![N, B]⟩ [0] [1] [] [1] [] 1 ![N, 1]) :
    GatherDims ⟨2, ![N, M]⟩ ⟨2, ![B, 1]⟩ ⟨2, ![N, B]⟩ where
  offsetDims := [0]
  collapsedSliceDims := [1]
  operandBatchingDims := []
  startIndicesBatchingDims := []
  startIndexMap := [1]
  indexVectorDim := 1
  sliceSizes := ![N, 1]
  wf := wf

private theorem cols_apply {N M B : Nat} {α : Type}
    (wf : GatherDims.WF ⟨2, ![N, M]⟩ ⟨2, ![B, 1]⟩ ⟨2, ![N, B]⟩ [0] [1] [] [1] [] 1 ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather (colsDims N M B wf) x idx (ix2 n b) = x (ix2 n ⟨(idx (ix2 b 0)).toNat, hlt⟩) := by
  unfold Host.gather
  refine congrArg x ?_
  funext a
  refine Fin.ext ?_
  show (colsDims N M B wf).start (ix2 n b) idx a + (colsDims N M B wf).batchCoord (ix2 n b) a
      + (colsDims N M B wf).offCoord (ix2 n b) a = _
  rw [GatherDims.batchCoord_eq_zero _ _ _ List.not_mem_nil, Nat.add_zero]
  match a with
  | ⟨0, _⟩ =>
    -- axis 0 is the offset axis, not start-indexed: start 0, the result's row coordinate
    show (colsDims N M B wf).start (ix2 n b) idx (0 : Fin 2) + (colsDims N M B wf).offCoord (ix2 n b) (0 : Fin 2)
      = n.val
    have hs : (colsDims N M B wf).start (ix2 n b) idx (0 : Fin 2) = 0 := by
      unfold GatherDims.start
      rw [dif_neg (show (0 : Fin 2) ∉ (colsDims N M B wf).startIndexMap from zero_not_mem)]
    rw [hs, Nat.zero_add]
    rfl
  | ⟨1, _⟩ =>
    -- axis 1 is collapsed and start-indexed: the clamped start index, no offset
    show (colsDims N M B wf).start (ix2 n b) idx (1 : Fin 2) + (colsDims N M B wf).offCoord (ix2 n b) (1 : Fin 2)
      = (idx (ix2 b 0)).toNat
    rw [GatherDims.offCoord_eq_zero _ _ _ (fun h => ((GatherDims.mem_sKept _ _).mp h).1 one_mem), Nat.add_zero]
    unfold GatherDims.start
    rw [dif_pos (show (1 : Fin 2) ∈ (colsDims N M B wf).startIndexMap from one_mem)]
    have hsi : (colsDims N M B wf).siIdx (ix2 n b) ⟨List.idxOf (1 : Fin 2) (colsDims N M B wf).startIndexMap,
        List.idxOf_lt_length_iff.2 one_mem⟩ = ix2 b 0 := by
      funext k; refine Fin.ext ?_
      match k with
      | ⟨0, _⟩ => rfl
      | ⟨1, _⟩ => rfl
    rw [hsi]
    exact clamp_eq _ M hM hlt

/-- A column gather (operand [N, M], start indices [B, 1], result [N, B]; offset_dims = [0], collapsed_slice_dims = [1],
    start_index_map = [1], index_vector_dim = 1, slice sizes [N, 1]) read at (n, b): column (idx b) of the operand at
    row n, when the word idx b names a column. -/
theorem gather_cols_apply {N M B : Nat} {α : Type} (d : GatherDims ⟨2, ![N, M]⟩ ⟨2, ![B, 1]⟩ ⟨2, ![N, B]⟩)
    (h1 : d.offsetDims = [0]) (h2 : d.collapsedSliceDims = [1]) (h3 : d.operandBatchingDims = [])
    (h4 : d.startIndicesBatchingDims = [])
    (h5 : d.startIndexMap = [1]) (h6 : d.indexVectorDim = 1) (h7 : d.sliceSizes = ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather d x idx (ix2 n b) = x (ix2 n ⟨(idx (ix2 b 0)).toNat, hlt⟩) := by
  obtain ⟨od, cd, ob, sb, sm, iv, ss, wf⟩ := d
  dsimp only at h1 h2 h3 h4 h5 h6 h7
  subst h1 h2 h3 h4 h5 h6 h7
  exact cols_apply wf x idx n b hM hlt

end Cert.LibGather
-- ==== Proof.RefValue.lean ====
/-
  The reference's result, read from its run one operation at a time: the three segment sums are the statistics, the
  three row gathers read the row's own context once the context numbers are in range, and the closing select keeps the
  affine value because the row's own context has at least one row.
-/
import proofs.«412077_j73332271612492_1_alg».proof.Proof.Spec
import proofs.«412077_j73332271612492_1_alg».proof.Proof.RefRun
import proofs.«412077_j73332271612492_1_alg».proof.Proof.RefRead
import proofs.«412077_j73332271612492_1_alg».proof.Proof.LibSegmentSum
import proofs.«412077_j73332271612492_1_alg».proof.Proof.LibSegmentRows
import proofs.«412077_j73332271612492_1_alg».proof.Proof.LibGather
import proofs.«412077_j73332271612492_1_alg».proof.Proof.Math
import Idealize.ShloMosaic.Lib.IdealHost

noncomputable section

open scoped BigOperators

namespace Cert.ReferenceIdeal.RefValue

open Idealize.ShloMosaic Idealize.ShloMosaic.TcCoe Idealize.SL.Sem Cert.ReferenceIdeal Cert.ReferenceIdeal.Gen
open Idealize.ShloMosaic.ValueIdx Cert.ReferenceIdeal.Read

/-! ## The column of context numbers, flattened and spread back, is itself -/

/-- The flat copy of the column at n is the column's row n. -/
theorem flat_apply (x1 : IVec S1000000x1 32) (n : Fin 1000000) :
    val_main_v0 (F := Ideal) x1 (ix1 n) = x1 (ix2 n (0 : Fin 1)) := by
  rw [val_main_v0_apply]
  refine congrArg x1 ?_
  funext a
  match a with
  | ⟨0, _⟩ => exact Fin.ext (Nat.div_one _)
  | ⟨1, _⟩ => rfl

/-- Every index of a one-column array is a row number and column 0. -/
theorem eq_col {N : Nat} (i : (⟨2, ![N, 1]⟩ : Shape).Idx) : i = ix2 (i 0) (0 : Fin 1) := by
  funext a
  match a with
  | ⟨0, _⟩ => rfl
  | ⟨1, _⟩ => exact Fin.ext (Nat.lt_one_iff.mp (idx2_lt1 i))

theorem spread3 (x1 : IVec S1000000x1 32) : val_main_v3 (F := Ideal) x1 = x1 := by
  funext i
  rw [val_main_v3_apply, eq_col i]
  exact flat_apply x1 (i 0)

theorem spread7 (x1 : IVec S1000000x1 32) : val_main_v7 (F := Ideal) x1 = x1 := by
  funext i
  rw [val_main_v7_apply, eq_col i]
  exact flat_apply x1 (i 0)

theorem spread11 (x1 : IVec S1000000x1 32) : val_main_v11 (F := Ideal) x1 = x1 := by
  funext i
  rw [val_main_v11_apply, eq_col i]
  exact flat_apply x1 (i 0)

/-! ## The three segment sums are the statistics -/

/-- The count's segment sum at entry s: the number of rows whose context number is s. -/
theorem count_apply (x1 : IVec S1000000x1 32) (s : Fin 16) :
    val_main_v4 (F := Ideal) x1 (ix1 s)
      = ∑ n : Fin 1000000, if (x1 (ix2 n (0 : Fin 1))).toInt = (s.val : Int) then (1 : EReal) else 0 := by
  unfold val_main_v4
  rw [spread3]
  refine (SegmentSum.scatterAdd_apply scatter_S16_S1000000x1_S1000000_n_0_0_1 rfl rfl rfl rfl
    (val_main_v2 (F := Ideal)) x1 (val_main_v1 (F := Ideal)) s).trans ?_
  rw [val_main_v2_apply, val_main_cst_0_apply]
  simp only [val_main_v1_apply, val_main_cst_apply]
  show Ideal.ofBits .f32 0x00000000#32 + ∑ n : Fin 1000000,
      (if (x1 (ix2 n (0 : Fin 1))).toInt = (s.val : Int) then Ideal.ofBits .f32 0x3F800000#32 else 0) = _
  rw [Ideal.ofBits_zero_f32, zero_add, Ideal.ofBits_one_f32]

theorem cnt_eq (x1 : IVec S1000000x1 32) : val_main_v5 (F := Ideal) x1 = Cert.Spec.cnt x1 := by
  funext i
  rw [val_main_v5_apply, show idx_main_v5 i = ix1 (i 0) from by funext a; match a with | ⟨0, _⟩ => rfl]
  exact count_apply x1 (i 0)

/-- The zero array the row sums start from. -/
theorem zero6 (i : S16x64.Idx) : val_main_v6 (F := Ideal) i = 0 := by
  rw [val_main_v6_apply, val_main_cst_1_apply]
  exact Ideal.ofBits_zero_f32

theorem zero10 (i : S16x64.Idx) : val_main_v10 (F := Ideal) i = 0 := by
  rw [val_main_v10_apply, val_main_cst_2_apply]
  exact Ideal.ofBits_zero_f32

theorem sum1_eq (x0 : FVec Ideal S1000000x64 .f32) (x1 : IVec S1000000x1 32) :
    val_main_v8 (F := Ideal) x0 x1 = Cert.Spec.sum1 x0 x1 := by
  funext i
  unfold val_main_v8
  rw [spread7, eq_ix2 i]
  refine (SegmentRows.scatterAdd_rows_apply scatter_S16x64_S1000000x1_S1000000x64_1_0_0_1 rfl rfl rfl rfl
    (val_main_v6 (F := Ideal)) x1 x0 (i 0) (i 1)).trans ?_
  rw [zero6, zero_add]
  rfl

theorem sum2_eq (x0 : FVec Ideal S1000000x64 .f32) (x1 : IVec S1000000x1 32) :
    val_main_v12 (F := Ideal) x0 x1 = Cert.Spec.sum2 x0 x1 := by
  funext i
  unfold val_main_v12
  rw [spread11, eq_ix2 i]
  refine (SegmentRows.scatterAdd_rows_apply scatter_S16x64_S1000000x1_S1000000x64_1_0_0_1 rfl rfl rfl rfl
    (val_main_v10 (F := Ideal)) x1 (val_main_v9 (F := Ideal) x0) (i 0) (i 1)).trans ?_
  rw [zero10, zero_add]
  rfl

/-! ## The chain from the statistics to the scale and the shift -/

theorem scale_eq (x0 : FVec Ideal S1000000x64 .f32) (x1 : IVec S1000000x1 32) (x2 : FVec Ideal S16x64 .f32)
    (x4 : FVec Ideal S16 .f32) :
    val_main_v28 (F := Ideal) x0 x1 x2 x4
      = Cert.Spec.scaleOf (val_main_v5 (F := Ideal) x1) (val_main_v8 (F := Ideal) x0 x1)
          (val_main_v12 (F := Ideal) x0 x1) x2 x4 := rfl

theorem shift_eq (x0 : FVec Ideal S1000000x64 .f32) (x1 : IVec S1000000x1 32) (x2 x3 : FVec Ideal S16x64 .f32)
    (x4 : FVec Ideal S16 .f32) :
    val_main_v33 (F := Ideal) x0 x1 x2 x3 x4
      = Cert.Spec.shiftOf (val_main_v5 (F := Ideal) x1) (val_main_v8 (F := Ideal) x0 x1)
          (val_main_v12 (F := Ideal) x0 x1) x2 x3 x4 := rfl

/-! ## A context number in range is its own index -/

/-- The index normalisation leaves a word that is not negative as it is. -/
theorem normalise (c : BitVec 32) (h0 : 0 ≤ c.toInt) :
    Scalar.select (IntOp.cmpi .slt c 0#32) (IntOp.addi c 16#32) c = c := by
  have e : IntOp.cmpi .slt c 0#32 = 0#1 := by
    show BitVec.ofBool (decide (c.toInt < (0#32 : BitVec 32).toInt)) = 0#1
    rw [decide_eq_false (by rw [BitVec.toInt_zero]; omega)]
    rfl
  rw [e, select_zero]

theorem index39 (x1 : IVec S1000000x1 32) (h : Cert.Spec.InRange x1) : val_main_v39 (F := Ideal) x1 = x1 := by
  funext i
  obtain ⟨n, rfl⟩ : ∃ n : Fin 1000000, i = ix2 n (0 : Fin 1) := ⟨i 0, eq_col i⟩
  rw [val_main_v39_apply,
    show idx_main_v39 (ix2 n (0 : Fin 1)) = ix1 n from by funext a; match a with | ⟨0, _⟩ => rfl,
    val_main_v38_apply, val_main_v35_apply, val_main_v37_apply, val_main_v34_apply, val_main_v36_apply,
    val_main_c_apply, val_main_c_5_apply, flat_apply]
  exact normalise _ (h n).1

theorem index47 (x1 : IVec S1000000x1 32) (h : Cert.Spec.InRange x1) : val_main_v47 (F := Ideal) x1 = x1 := by
  funext i
  obtain ⟨n, rfl⟩ : ∃ n : Fin 1000000, i = ix2 n (0 : Fin 1) := ⟨i 0, eq_col i⟩
  rw [val_main_v47_apply,
    show idx_main_v47 (ix2 n (0 : Fin 1)) = ix1 n from by funext a; match a with | ⟨0, _⟩ => rfl,
    val_main_v46_apply, val_main_v43_apply, val_main_v45_apply, val_main_v42_apply, val_main_v44_apply,
    val_main_c_6_apply, val_main_c_7_apply, flat_apply]
  exact normalise _ (h n).1

theorem index55 (x1 : IVec S1000000x1 32) (h : Cert.Spec.InRange x1) : val_main_v55 (F := Ideal) x1 = x1 := by
  funext i
  obtain ⟨n, rfl⟩ : ∃ n : Fin 1000000, i = ix2 n (0 : Fin 1) := ⟨i 0, eq_col i⟩
  rw [val_main_v55_apply,
    show idx_main_v55 (ix2 n (0 : Fin 1)) = ix1 n from by funext a; match a with | ⟨0, _⟩ => rfl,
    val_main_v54_apply, val_main_v51_apply, val_main_v53_apply, val_main_v50_apply, val_main_v52_apply,
    val_main_c_8_apply, val_main_c_9_apply, flat_apply]
  exact normalise _ (h n).1

/-- In range, the unsigned value of row n's context number is below sixteen. -/
theorem ctx_lt (x1 : IVec S1000000x1 32) (h : Cert.Spec.InRange x1) (n : Fin 1000000) :
    (x1 (ix2 n (0 : Fin 1))).toNat < 16 :=
  Cert.Spec.toNat_lt_of_inRange _ (h n).1 (h n).2

/-- In range, the row the gathers read is the row's own context. -/
theorem ctx_eq (x1 : IVec S1000000x1 32) (h : Cert.Spec.InRange x1) (n : Fin 1000000) :
    (⟨(x1 (ix2 n (0 : Fin 1))).toNat, ctx_lt x1 h n⟩ : Fin 16) = Cert.Spec.ctxOf x1 n :=
  Fin.ext (Nat.mod_eq_of_lt (ctx_lt x1 h n)).symm

/-! ## The three gathers read the row's own context -/

theorem gather40 (x0 : FVec Ideal S1000000x64 .f32) (x1 : IVec S1000000x1 32) (x2 : FVec Ideal S16x64 .f32)
    (x4 : FVec Ideal S16 .f32) (h : Cert.Spec.InRange x1) (n : Fin 1000000) (j : Fin 64) :
    val_main_v40 (F := Ideal) x0 x1 x2 x4 (ix2 n j)
      = val_main_v28 (F := Ideal) x0 x1 x2 x4 (ix2 (Cert.Spec.ctxOf x1 n) j) := by
  unfold val_main_v40
  rw [index39 x1 h, ← ctx_eq x1 h n]
  exact Cert.LibGather.gather_rows_apply gather_S16x64_S1000000x1_S1000000x64_1_0_n_n_0_1_164 rfl rfl rfl rfl rfl rfl rfl
    (val_main_v28 (F := Ideal) x0 x1 x2 x4) x1 n j (by norm_num) (ctx_lt x1 h n)

theorem gather48 (x0 : FVec Ideal S1000000x64 .f32) (x1 : IVec S1000000x1 32) (x2 x3 : FVec Ideal S16x64 .f32)
    (x4 : FVec Ideal S16 .f32) (h : Cert.Spec.InRange x1) (n : Fin 1000000) (j : Fin 64) :
    val_main_v48 (F := Ideal) x0 x1 x2 x3 x4 (ix2 n j)
      = val_main_v33 (F := Ideal) x0 x1 x2 x3 x4 (ix2 (Cert.Spec.ctxOf x1 n) j) := by
  unfold val_main_v48
  rw [index47 x1 h, ← ctx_eq x1 h n]
  exact Cert.LibGather.gather_rows_apply gather_S16x64_S1000000x1_S1000000x64_1_0_n_n_0_1_164 rfl rfl rfl rfl rfl rfl rfl
    (val_main_v33 (F := Ideal) x0 x1 x2 x3 x4) x1 n j (by norm_num) (ctx_lt x1 h n)

theorem gather56 (x1 : IVec S1000000x1 32) (h : Cert.Spec.InRange x1) (n : Fin 1000000) :
    val_main_v56 (F := Ideal) x1 (ix2 n (0 : Fin 1))
      = val_main_v5 (F := Ideal) x1 (ix2 (Cert.Spec.ctxOf x1 n) (0 : Fin 1)) := by
  unfold val_main_v56
  rw [index55 x1 h, ← ctx_eq x1 h n]
  exact Cert.LibGather.gather_rows_apply gather_S16x1_S1000000x1_S1000000x1_1_0_n_n_0_1_11 rfl rfl rfl rfl rfl rfl rfl
    (val_main_v5 (F := Ideal) x1) x1 n (0 : Fin 1) (by norm_num) (ctx_lt x1 h n)

/-! ## The result -/

theorem ref_eq (x0 : FVec Ideal S1000000x64 .f32) (x1 : IVec S1000000x1 32) (x2 x3 : FVec Ideal S16x64 .f32)
    (x4 : FVec Ideal S16 .f32) (h : Cert.Spec.InRange x1) :
    Cert.ReferenceIdeal.Read.val_main_v59 (F := Ideal) x0 x1 x2 x3 x4 = Cert.Spec.result x0 x1 x2 x3 x4 := by
  funext i
  obtain ⟨n, j, rfl⟩ : ∃ (n : Fin 1000000) (j : Fin 64), i = ix2 n j := ⟨i 0, i 1, eq_ix2 i⟩
  -- the guard: the count at the row's own context is above zero, since that context has the row itself
  have hg : val_main_call0_v0 (F := Ideal) x1 (ix2 n j) = 1#1 := by
    rw [val_main_call0_v0_apply,
      show idx_main_call0_v0 (ix2 n j) = ix2 n (0 : Fin 1) from by
        funext a; match a with | ⟨0, _⟩ => rfl | ⟨1, _⟩ => rfl,
      val_main_v58_apply, gather56 x1 h n, cnt_eq, val_main_v57_apply, val_main_cst_10_apply, Ideal.cmpf_def]
    show Ideal.cmp .ogt (Cert.Spec.cnt x1 (ix2 (Cert.Spec.ctxOf x1 n) (0 : Fin 1)))
      (Ideal.ofBits .f32 0x00000000#32) = 1#1
    rw [Ideal.ofBits_zero_f32]
    show BitVec.ofBool (decide ((0 : EReal) < Cert.Spec.cnt x1 (ix2 (Cert.Spec.ctxOf x1 n) (0 : Fin 1)))) = 1#1
    rw [decide_eq_true (Cert.Spec.cnt_pos x1 h n)]
    rfl
  rw [val_main_v59_apply, hg, select_one, val_main_v49_apply, val_main_v41_apply,
    gather40 x0 x1 x2 x4 h n j, gather48 x0 x1 x2 x3 x4 h n j, scale_eq, shift_eq, cnt_eq, sum1_eq, sum2_eq]
  rfl

end Cert.ReferenceIdeal.RefValue

end
-- ==== Proof.PreRange.lean ====
/-
  The added conjuncts of the precondition read back: every context number, read signed, lies in [0, 16).
-/
import proofs.«412077_j73332271612492_1_alg».proof.Proof.Spec
import proofs.«412077_j73332271612492_1_alg».proof.Pre_finite_inputs
import proofs.«412077_j73332271612492_1_alg».proof.Proof.Gen.Pre_finite_inputs
import Idealize.ShloMosaic.Lib.ReduceAll

noncomputable section

namespace Cert.PreRange

open Idealize.ShloMosaic

variable [Cert.Pre_finite_inputs.Facts]

/-- The scalar shape has one index. -/
theorem subsingleton_scalar_idx : Subsingleton Cert.Pre_finite_inputs.S_.Idx :=
  ⟨fun a b => funext fun d => d.elim0⟩

/-- The words 0 and 16 read signed. -/
theorem toInt_zero32 : (0#32 : BitVec 32).toInt = 0 := by decide
theorem toInt_sixteen32 : (16#32 : BitVec 32).toInt = 16 := by decide

/-- The tail of the precondition, the conjunction of what came before with "all contexts ≥ 0" and "all contexts < 16",
    read at one row: when the conjunction is 1, the word of that row lies in [0, 16) signed. The two earlier conjuncts
    are left unread. -/
theorem part1_decode {F : FTy → Type} [FloatOps F] (a1 : IVec Cert.Pre_finite_inputs.S1000000x1 32)
    (v13 : IVec Cert.Pre_finite_inputs.S_ 1) (v16 : IVec Cert.Pre_finite_inputs.S16 1)
    (e : Cert.Pre_finite_inputs.fn_part1 (F := F) a1 v13 v16 ValueIdx.ix0 = 1#1)
    (i : Cert.Pre_finite_inputs.S1000000x1.Idx) : 0 ≤ (a1 i).toInt ∧ (a1 i).toInt < 16 := by
  unfold Cert.Pre_finite_inputs.fn_part1 at e
  dsimp only at e
  -- the result is an `and` of three `and`s: split it, keep the last two conjuncts
  simp only [andi, IntOp.andi_eq_one] at e
  obtain ⟨⟨-, hge⟩, hlt⟩ := e
  -- each is an and-reduction over every row that came out 1: every row's comparison word is 1
  haveI := subsingleton_scalar_idx
  have hge' := Host.reduce_andi_all _ _ _ _ _ hge i
  have hlt' := Host.reduce_andi_all _ _ _ _ _ hlt i
  -- the comparison at row i is of the word a1 i against the constant spread over the rows
  simp only [cmpi, broadcastInDim, constantI] at hge' hlt'
  rw [IntOp.cmpi_sge, toInt_zero32] at hge'
  rw [IntOp.cmpi_slt, toInt_sixteen32] at hlt'
  exact ⟨hge', hlt'⟩

theorem inRange_of_pre {F : FTy → Type} [FloatOps F] (a0 : FVec F Cert.Pre_finite_inputs.S1000000x64 .f32)
    (a1 : IVec Cert.Pre_finite_inputs.S1000000x1 32) (a2 a3 : FVec F Cert.Pre_finite_inputs.S16x64 .f32)
    (a4 : FVec F Cert.Pre_finite_inputs.S16 .f32)
    (h : Cert.Pre_finite_inputs.fn (F := F) a0 a1 a2 a3 a4 = fun _ => 1#1) : Cert.Spec.InRange a1 := by
  have e := congrFun h ValueIdx.ix0
  unfold Cert.Pre_finite_inputs.fn at e
  dsimp only at e
  intro n
  exact part1_decode (F := F) a1 _ _ e (ValueIdx.ix2 n (0 : Fin 1))

end Cert.PreRange

end
-- ==== Proof.lean ====
/-
  The kernel normalises each row of the samples by the statistics of the rows that share its context number: a first
  pass over the rows accumulates, per context, the number of rows, the column sums and the column sums of squares (a
  product of the rows with the indicator matrix "row r carries context k", block of 6400 rows by block); sixteen-by-
  sixty-four arithmetic turns them into a scale and a shift per context and column; a second pass multiplies each row by
  the scale its context selects and adds the shift it selects, the selection again a product with the indicator matrix.
  The reference computes the three statistics as segment sums, the same sixteen-by-sixty-four arithmetic, and gathers
  the scale and the shift by the context number.

  Over the extended reals the two agree once every context number lies in [0, 16) (the added precondition: outside it
  the kernel's indicator column is zero and the reference's gather wraps or clamps): 0 · y = 0 and 1 · y = y hold for
  every extended real y, so a sum against the indicator selects exactly; the rows appended to fill the last block carry
  the number −1 and add nothing; a row's own context has at least that row, so both programs' guards for empty
  contexts are inactive at every row. Proof/Spec.lean states the common result, Proof/KValue.lean reads it off the
  kernel's run (Proof/KRun.lean), Proof/RefValue.lean off the reference's run (Proof/RefRun.lean, Proof/RefRead.lean).
  The claim's `preserves` conjunct is `True` as Defs.lean states it (the ledger of rewrites between the kernel and its
  idealization is empty there), so it is closed by `trivial`.
-/
import proofs.«412077_j73332271612492_1_alg».proof.Defs
import proofs.«412077_j73332271612492_1_alg».proof.Proof.Gen.Kernel
import proofs.«412077_j73332271612492_1_alg».proof.Proof.Gen.Kernel.Frame
import proofs.«412077_j73332271612492_1_alg».proof.Proof.Gen.KernelIdeal
import proofs.«412077_j73332271612492_1_alg».proof.Proof.Gen.KernelIdeal.Frame
import proofs.«412077_j73332271612492_1_alg».proof.Proof.Gen.ReferenceIdeal
import proofs.«412077_j73332271612492_1_alg».proof.Proof.Gen.Pre_finite_inputs
import proofs.«412077_j73332271612492_1_alg».proof.Proof.KRun
import proofs.«412077_j73332271612492_1_alg».proof.Proof.KValue
import proofs.«412077_j73332271612492_1_alg».proof.Proof.RefRun
import proofs.«412077_j73332271612492_1_alg».proof.Proof.RefRead
import proofs.«412077_j73332271612492_1_alg».proof.Proof.RefValue
import proofs.«412077_j73332271612492_1_alg».proof.Proof.PreRange
import Idealize.ShloMosaic.Adequacy
import Idealize.ShloMosaic.Init

noncomputable section

namespace Cert.Proof

open Idealize.ShloMosaic Idealize.SL.Sem

section claims
variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the common result of the arguments (the kernel's by its value module, the reference's by its
    stage read at the arguments), the context numbers in range by the precondition. -/
theorem algebraic : Cert.algebraic_KernelIdeal_ReferenceIdeal := by
  intro m ρ m' ρ' hpre hagree
  have hr : ∀ c : Dev Cert.KernelIdeal.nD,
      Cert.Spec.InRange (m ((c.tc : Thread Cert.KernelIdeal.nD Cert.KernelIdeal.τ).loc Cert.KernelIdeal.main_arg1)) :=
    fun c => Cert.PreRange.inRange_of_pre (F := Ideal) _ _ _ _ _ (hpre c)
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KValue.result_eq m ρ c (hr c)), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v59_eq, (hagree c).1, (hagree c).2.1, (hagree c).2.2.1, (hagree c).2.2.2.1,
      (hagree c).2.2.2.2]
    exact Cert.ReferenceIdeal.RefValue.ref_eq _ _ _ _ _ (hr c)

end claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
